-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x2x1024 .f32) (main_arg1 : FVec F S3072x1024 .f32) (main_arg2 : FVec F S3072 .f32) (main_arg3 : FVec F S1024x1024 .f32) (main_arg4 : FVec F S1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2048x2x1024 : Shape := ⟨3, ![2048, 2, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S1024x3072 : Shape := ⟨2, ![1024, 3072]⟩
abbrev S2048x2x3072 : Shape := ⟨3, ![2048, 2, 3072]⟩
abbrev S1x1024 : Shape := ⟨2, ![1, 1024]⟩
abbrev S256x2x1024 : Shape := ⟨3, ![256, 2, 1024]⟩
abbrev S256x1x1024 : Shape := ⟨3, ![256, 1, 1024]⟩
abbrev S256x1024 : Shape := ⟨2, ![256, 1024]⟩
abbrev S2048x1x1024 : Shape := ⟨3, ![2048, 1, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S2048x2x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S3072x1024, .bf16⟩
  | .hbm, ⟨7, _⟩ => ⟨S1024x1024, .bf16⟩
  | .hbm, ⟨8, _⟩ => ⟨S1x3072, .f32⟩
  | .hbm, ⟨9, _⟩ => ⟨S4096x3072, .bf16⟩
  | .hbm, ⟨10, _⟩ => ⟨S2048x2x3072, .bf16⟩
  | .hbm, ⟨11, _⟩ => ⟨S1x1024, .f32⟩
  | .hbm, ⟨12, _⟩ => ⟨S2048x2x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S256x2x1024, .bf16⟩
  | .local _ .vmem, ⟨7, _⟩ => ⟨S256x2x1024, .bf16⟩
  | .local _ .vmem, ⟨8, _⟩ => ⟨S2048x2x1024, .bf16⟩
  | .local _ .vmem, ⟨9, _⟩ => ⟨S2048x2x1024, .bf16⟩
  | .local _ .vmem, ⟨10, _⟩ => ⟨S1024x1024, .bf16⟩
  | .local _ .vmem, ⟨11, _⟩ => ⟨S1x1024, .f32⟩
  | .local _ .vmem, ⟨12, _⟩ => ⟨S256x2x1024, .f32⟩
  | .local _ .vmem, ⟨13, _⟩ => ⟨S256x2x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x2x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2048x2x1024_S4096x1024 : S2048x2x1024.ShapeCasts S4096x1024
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  inb_S1024x3072_S1024x3072_0_0 : ∀ a, (![0, 0] : Fin 2 → Nat) a + S1024x3072.size a ≤ S1024x3072.size a
  h_S1024x3072 : 0 < S1024x3072.numel
  packedbf16_S1024x3072_S1024x3072_0_0 : (Rect.unit (s := S1024x3072) ![0, 0] S1024x3072.size inb_S1024x3072_S1024x3072_0_0).PackedRows (EltTy.packing .bf16)
  shapeCasts_S4096x3072_S2048x2x3072 : S4096x3072.ShapeCasts S2048x2x3072
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x2x1024_S256x1x1024_0_0_0 : ∀ a, (![0, 0, 0] : Fin 3 → Nat) a + S256x1x1024.size a ≤ S256x2x1024.size a
  h_S256x1x1024 : 0 < S256x1x1024.numel
  shapeCasts_S256x1x1024_S256x1024 : S256x1x1024.ShapeCasts S256x1024
  inb_S2048x2x1024_S2048x1x1024_0_0_0 : ∀ a, (![0, 0, 0] : Fin 3 → Nat) a + S2048x1x1024.size a ≤ S2048x2x1024.size a
  h_S2048x1x1024 : 0 < S2048x1x1024.numel
  shapeCasts_S2048x1x1024_S2048x1024 : S2048x1x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x1024_o0_64_S256x64 : S256x1024.Slices ![0, 64] S256x64
  slices_S2048x1024_o0_64_S2048x64 : S2048x1024.Slices ![0, 64] S2048x64
  slices_S256x1024_o0_128_S256x64 : S256x1024.Slices ![0, 128] S256x64
  slices_S2048x1024_o0_128_S2048x64 : S2048x1024.Slices ![0, 128] S2048x64
  slices_S256x1024_o0_192_S256x64 : S256x1024.Slices ![0, 192] S256x64
  slices_S2048x1024_o0_192_S2048x64 : S2048x1024.Slices ![0, 192] S2048x64
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  broadcasts_S1x1024_S256x1024 : S1x1024.Broadcasts S256x1024
  shapeCasts_S256x1024_S256x1x1024 : S256x1024.ShapeCasts S256x1x1024
  inb_S256x2x1024_S256x1x1024_0_1_0 : ∀ a, (![0, 1, 0] : Fin 3 → Nat) a + S256x1x1024.size a ≤ S256x2x1024.size a
  inb_S2048x2x1024_S2048x1x1024_0_1_0 : ∀ a, (![0, 1, 0] : Fin 3 → Nat) a + S2048x1x1024.size a ≤ S2048x2x1024.size a
  dot_S1024x1024_S3072x1024_S1024x3072_1_1_0_0_n_n_wf : DotDims.WF S1024x1024 S3072x1024 S1024x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S4096x3072.size a
  hwx0_3 : ∀ i : grid0.Coords, EltTy.bits .bf16 = 32 ∨ (Rect.block (s := S4096x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2x1024.size a ≤ S2048x2x3072.size a
  hwx1_0 : ∀ i : grid1.Coords, EltTy.bits .bf16 = 32 ∨ (Rect.block (s := S2048x2x3072) S256x2x1024.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x2x1024.size a ≤ S2048x2x3072.size a
  hwx1_1 : ∀ i : grid1.Coords, EltTy.bits .bf16 = 32 ∨ (Rect.block (s := S2048x2x3072) S2048x2x1024.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S2048x2x1024.size a ≤ S2048x2x3072.size a
  hwx1_2 : ∀ i : grid1.Coords, EltTy.bits .bf16 = 32 ∨ (Rect.block (s := S2048x2x3072) S2048x2x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2x1024.size a ≤ S2048x2x1024.size a
  hwx1_5 : ∀ i : grid1.Coords, EltTy.bits .f32 = 32 ∨ (Rect.block (s := S2048x2x1024) S256x2x1024.size (cc1_transform_5 i) (hinb1_5 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S256x2x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x2x1024.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x2x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x2x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x2x1024 : Shape := ⟨3, ![2048, 2, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2048x2x3072 : Shape := ⟨3, ![2048, 2, 3072]⟩
abbrev S1x1x3072 : Shape := ⟨3, ![1, 1, 3072]⟩
abbrev S2048x2x16x64 : Shape := ⟨4, ![2048, 2, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2048x2x3072, .f32⟩
  | .hbm, ⟨6, _⟩ => ⟨S1x1x3072, .f32⟩
  | .hbm, ⟨7, _⟩ => ⟨S2048x2x3072, .f32⟩
  | .hbm, ⟨8, _⟩ => ⟨S2048x2x3072, .f32⟩
  | .hbm, ⟨9, _⟩ => ⟨S2048x2x1024, .f32⟩
  | .hbm, ⟨10, _⟩ => ⟨S2048x2x1024, .f32⟩
  | .hbm, ⟨11, _⟩ => ⟨S2048x2x1024, .f32⟩
  | .hbm, ⟨12, _⟩ => ⟨S2048x2x16x64, .f32⟩
  | .hbm, ⟨13, _⟩ => ⟨S2x16x2048x64, .f32⟩
  | .hbm, ⟨14, _⟩ => ⟨S2048x2x16x64, .f32⟩
  | .hbm, ⟨15, _⟩ => ⟨S2x16x2048x64, .f32⟩
  | .hbm, ⟨16, _⟩ => ⟨S2048x2x16x64, .f32⟩
  | .hbm, ⟨17, _⟩ => ⟨S2x16x2048x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x16x2048x64, .f32⟩
  | .hbm, ⟨23, _⟩ => ⟨S2x16x2048x64, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S_, .f32⟩
  | .hbm, ⟨28, _⟩ => ⟨S2x16x2048, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x64, .f32⟩
  | .hbm, ⟨40, _⟩ => ⟨S2048x2x16x64, .f32⟩
  | .hbm, ⟨41, _⟩ => ⟨S2048x2x1024, .f32⟩
  | .hbm, ⟨42, _⟩ => ⟨S2048x2x1024, .f32⟩
  | .hbm, ⟨43, _⟩ => ⟨S1x1x1024, .f32⟩
  | .hbm, ⟨44, _⟩ => ⟨S2048x2x1024, .f32⟩
  | .hbm, ⟨45, _⟩ => ⟨S2048x2x1024, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2048x2x3072_0_1_2 : S1x1x3072.BroadcastsInDim S2048x2x3072 (![0, 1, 2] : Fin 3 → Fin S2048x2x3072.rank)
  slices_S2048x2x3072_S2048x2x1024_0_0_0 : S2048x2x3072.Slices ![0, 0, 0] S2048x2x1024
  slices_S2048x2x3072_S2048x2x1024_0_0_1024 : S2048x2x3072.Slices ![0, 0, 1024] S2048x2x1024
  slices_S2048x2x3072_S2048x2x1024_0_0_2048 : S2048x2x3072.Slices ![0, 0, 2048] S2048x2x1024
  shapeCasts_S2048x2x1024_S2048x2x16x64 : S2048x2x1024.ShapeCasts S2048x2x16x64
  transposes_S2048x2x16x64_S2x16x2048x64_1_2_0_3 : S2048x2x16x64.Transposes [1, 2, 0, 3] S2x16x2048x64
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2048x2x16x64_2_0_1_3 : S2x16x2048x64.Transposes [2, 0, 1, 3] S2048x2x16x64
  shapeCasts_S2048x2x16x64_S2048x2x1024 : S2048x2x16x64.ShapeCasts S2048x2x1024
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  dot_S2048x2x1024_S3072x1024_S2048x2x3072_2_1_01_0_n_n_wf : DotDims.WF S2048x2x1024 S3072x1024 S2048x2x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2048x2x1024_S1024x1024_S2048x2x1024_2_1_01_0_n_n_wf : DotDims.WF S2048x2x1024 S1024x1024 S2048x2x1024 [2] [1] [0, 1] [0] [] []

variable [Facts₀]

def dot_S2048x2x1024_S3072x1024_S2048x2x3072_2_1_01_0_n_n : DotDims S2048x2x1024 S3072x1024 S2048x2x3072 where
  lhsContracting := [2]
  rhsContracting := [1]
  lhsNonContracting := [0, 1]
  rhsNonContracting := [0]
  lhsBatch := []
  rhsBatch := []
  wf := dot_S2048x2x1024_S3072x1024_S2048x2x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2048x2x1024_S1024x1024_S2048x2x1024_2_1_01_0_n_n : DotDims S2048x2x1024 S1024x1024 S2048x2x1024 where
  lhsContracting := [2]
  rhsContracting := [1]
  lhsNonContracting := [0, 1]
  rhsNonContracting := [0]
  lhsBatch := []
  rhsBatch := []
  wf := dot_S2048x2x1024_S1024x1024_S2048x2x1024_2_1_01_0_n_n_wf

class Facts : Prop extends Facts₀ where

variable [Facts]
-- ==== Proof.Outs.lean ====
/-
  What each kernel body leaves in its output staging buffer, as a pure function of the blocks it was handed.

  The projection kernel stores one value over its whole 1024 × 3072 buffer. The attention kernel stores twice into its
  256 × 2 × 1024 buffer, once per batch entry: the slab `[:, n, :]` receives the output projection of the sixteen
  concatenated head outputs for entry `n`, computed from the slabs `[:, n, :]` of the query tile and of the whole
  key and value arrays. The two functions below thread the body's values exactly as the body does, statement
  window by statement window.
-/
import proofs.«409386_j62869731279490_3_alg».proof.Proof.Gen.KernelIdeal.Skeleton
import proofs.«409386_j62869731279490_3_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Cert.KernelIdeal Cert.KernelIdeal.Gen

variable {F : FTy → Type} [FloatOps F]

/-! ## The projection kernel -/

/-- The whole input tile, the whole weight, the whole bias row, the whole output tile. -/
abbrev rX : Rect S1024x1024 := Rect.unit (s := S1024x1024) ![0, 0] S1024x1024.size inb_S1024x1024_S1024x1024_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0
abbrev rO : Rect S1024x3072 := Rect.unit (s := S1024x3072) ![0, 0] S1024x3072.size inb_S1024x3072_S1024x3072_0_0

/-- The output tile after the body: its one store, over the whole tile. -/
def out0_3 (x0 : Vec F S1024x1024 .f32) (x1 : Vec F S3072x1024 .bf16) (x2 : Vec F S1x3072 .f32) : Vec F S1024x3072 .bf16 :=
  View.canon [⟨rO, k0_pay1 (View.ld x0 rX) (View.ld x1 rW) (View.ld x2 rB)⟩]

/-- The one store covers the tile. -/
theorem cover0_3 (p0 : Vec F S1024x3072 .bf16) (y : S1024x3072.Idx) :
    ∃ pc ∈ ([⟨rO, p0⟩] : List (View.Piece (Elt F) S1024x3072 .bf16)), y ∈ pc.1.set :=
  View.cover_of_tiled [⟨rO, p0⟩] S1024x3072.size (by rfl) y

/-! ## The attention kernel -/

/-- Batch entry `0`'s and entry `1`'s slab of a 256-row tile and of a 2048-row array; the whole output-projection
    weight and bias row. -/
abbrev rT0 : Rect S256x2x1024 := Rect.unit (s := S256x2x1024) ![0, 0, 0] S256x1x1024.size inb_S256x2x1024_S256x1x1024_0_0_0
abbrev rT1 : Rect S256x2x1024 := Rect.unit (s := S256x2x1024) ![0, 1, 0] S256x1x1024.size inb_S256x2x1024_S256x1x1024_0_1_0
abbrev rA0 : Rect S2048x2x1024 := Rect.unit (s := S2048x2x1024) ![0, 0, 0] S2048x1x1024.size inb_S2048x2x1024_S2048x1x1024_0_0_0
abbrev rA1 : Rect S2048x2x1024 := Rect.unit (s := S2048x2x1024) ![0, 1, 0] S2048x1x1024.size inb_S2048x2x1024_S2048x1x1024_0_1_0
abbrev rWo : Rect S1024x1024 := Rect.unit (s := S1024x1024) ![0, 0] S1024x1024.size inb_S1024x1024_S1024x1024_0_0
abbrev rBo : Rect S1x1024 := Rect.unit (s := S1x1024) ![0, 0] S1x1024.size inb_S1x1024_S1x1024_0_0

/-- What the body stores for batch entry `0`, from the loaded weight `w0`, bias row `b0` and the entry's slabs of the
    query tile, the keys and the values. -/
def store1_0 (w0 : Vec F S1024x1024 .bf16) (b0 : Vec F S1x1024 .f32) (q0 : Vec F S256x1x1024 .bf16)
    (k0 v0 : Vec F S2048x1x1024 .bf16) : FVec F S256x1x1024 .f32 :=
  let v1 := k1_pay4 w0
  let v3 := k1_pay5 b0
  let v5 := k1_pay6 q0
  let v7 := k1_pay7 k0
  let v9 := k1_pay8 v0
  let v27 := k1_pay9 q0 k0 v0
  let v30 := k1_pay10 v0
  let v37 := k1_pay11 q0 k0
  let v45 := k1_pay12 v30 v37
  let v63 := k1_pay13 v5 v7 v9
  let v81 := k1_pay14 v5 v7 v9
  let v82 := k1_pay15 v5
  let v83 := k1_pay16 v7
  let v84 := k1_pay17 v9
  let cst_31 : FVec F S256x2048 .f32 := constant S256x2048 .f32 0x00000000#32
  let v99 := k1_pay18 v82 v83 v84 cst_31
  let v117 := k1_pay19 v5 v7 v9
  let v120 := k1_pay20 v9
  let v130 := k1_pay22 v5 v7
  let v131 := k1_pay23 v5 v7
  let v135 := k1_pay24 v120 v130 v131
  let v153 := k1_pay25 v5 v7 v9
  let v171 := k1_pay26 v5 v7 v9
  let v174 := k1_pay27 v9
  let v177 := k1_pay28 v5 v7
  let v189 := k1_pay29 v174 v177
  let v207 := k1_pay30 v5 v7 v9
  let v225 := k1_pay31 v5 v7 v9
  let v243 := k1_pay32 v5 v7 v9
  let v261 := k1_pay33 v5 v7 v9
  let v264 := k1_pay34 v9
  let v272 := k1_pay35 v5 v7
  k1_pay36 v1 v3 v5 v7 v9 v27 v45 v63 v81 v99 v117 v135 v153 v171 v189 v207 v225 v243 v261 v264 v272

/-- What the body stores for batch entry `1`, likewise. -/
def store1_1 (w0 : Vec F S1024x1024 .bf16) (b0 : Vec F S1x1024 .f32) (q1 : Vec F S256x1x1024 .bf16)
    (k1 v1' : Vec F S2048x1x1024 .bf16) : FVec F S256x1x1024 .f32 :=
  let v1 := k1_pay4 w0
  let v3 := k1_pay5 b0
  let v306 := k1_pay37 q1
  let v308 := k1_pay38 k1
  let v310 := k1_pay39 v1'
  let v311 := k1_pay40 q1
  let v328 := k1_pay41 v308 v310 v311
  let v346 := k1_pay42 v306 v308 v310
  let v349 := k1_pay43 v310
  let v357 := k1_pay44 v306 v308
  let v364 := k1_pay45 v349 v357
  let v382 := k1_pay46 v306 v308 v310
  let v400 := k1_pay47 v306 v308 v310
  let v403 := k1_pay48 v310
  let v404 := k1_pay49 v306 v308
  let cst_129 : F .f32 := Scalar.ofBits .f32 0x3E000000#32
  let v418 := k1_pay50 v403 v404 cst_129
  let v436 := k1_pay51 v306 v308 v310
  let v449 := k1_pay53 v306 v308
  let v451 := k1_pay54 v306 v308 v310
  let v454 := k1_pay55 v449 v451
  let v472 := k1_pay56 v306 v308 v310
  let v490 := k1_pay57 v306 v308 v310
  let v493 := k1_pay58 v310
  let v496 := k1_pay59 v306 v308
  let v498 := k1_pay60 v306 v308
  let v508 := k1_pay61 v493 v496 v498
  let v526 := k1_pay62 v306 v308 v310
  let v544 := k1_pay63 v306 v308 v310
  let v545 := k1_pay64 v306
  let v546 := k1_pay65 v308
  let v562 := k1_pay66 v310 v545 v546
  let v580 := k1_pay67 v306 v308 v310
  let v583 := k1_pay68 v310
  let v591 := k1_pay69 v306 v308
  let v592 := k1_pay70 v306 v308
  let v597 := k1_pay1 v583 v591 v592
  let v599 := k1_pay2 v328 v346 v364 v382 v400 v418 v436 v454 v472 v490 v508 v526 v544 v562 v580 v597
  k1_pay3 v1 v3 v599

/-- The output tile after the body: its two stores, the later one first. -/
def out1_5 (x0 : Vec F S256x2x1024 .bf16) (x1 x2 : Vec F S2048x2x1024 .bf16) (x3 : Vec F S1024x1024 .bf16)
    (x4 : Vec F S1x1024 .f32) : Vec F S256x2x1024 .f32 :=
  View.canon [⟨rT1, store1_1 (View.ld x3 rWo) (View.ld x4 rBo) (View.ld x0 rT1) (View.ld x1 rA1) (View.ld x2 rA1)⟩,
    ⟨rT0, store1_0 (View.ld x3 rWo) (View.ld x4 rBo) (View.ld x0 rT0) (View.ld x1 rA0) (View.ld x2 rA0)⟩]

/-- The two slabs tile the buffer. -/
theorem cover1_5 (p1 p0 : Vec F S256x1x1024 .f32) (y : S256x2x1024.Idx) :
    ∃ pc ∈ ([⟨rT1, p1⟩, ⟨rT0, p0⟩] : List (View.Piece (Elt F) S256x2x1024 .f32)), y ∈ pc.1.set :=
  View.cover_of_tiledL [⟨rT1, p1⟩, ⟨rT0, p0⟩] S256x1x1024.size (by sl_kernel_rfl) y

end Cert.KernelIdeal.Hand

end
-- ==== Proof.Body0.lean ====
/-
  The projection kernel's body as a triple: handed its three input tiles whole and its output tile at anything, it
  returns the inputs as they were and the output tile at `out0_3` of them.
-/
import proofs.«409386_j62869731279490_3_alg».proof.Proof.Outs
import proofs.«409386_j62869731279490_3_alg».proof.Proof.Gen.KernelIdeal.Skeleton
import proofs.«409386_j62869731279490_3_alg».proof.Proof.Gen.KernelIdeal.Launch
import proofs.«409386_j62869731279490_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The projection body on whole staging memrefs. -/
theorem sound_kernel0 (c : Dev nD) (E : Set ℕ) (i : grid0.Coords)
    (arg1 : Memref sig .tc .vmem S1024x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.Body1.lean ====
/-
  The attention kernel's body as a triple: handed its five input blocks whole and its output tile at anything, it
  returns the inputs as they were and the output tile at `out1_5` of them.
-/
import proofs.«409386_j62869731279490_3_alg».proof.Proof.Outs
import proofs.«409386_j62869731279490_3_alg».proof.Proof.Gen.KernelIdeal.Skeleton
import proofs.«409386_j62869731279490_3_alg».proof.Proof.Gen.KernelIdeal.Launch
import proofs.«409386_j62869731279490_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The attention body on whole staging memrefs. -/
theorem sound_kernel1 (c : Dev nD) (E : Set ℕ) (i : grid1.Coords)
    (arg1 : Memref sig .tc .vmem S256x2x1024 .bf16) (harg1 : arg1.IsWhole) (arg2 : Memref sig .tc .vmem S2048x2x1024 .bf16) (harg2 : arg2.IsWhole)
    (arg3 : Memref sig .tc .vmem S2048x2x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S256x2x1024 .f32) (harg6 : arg6.IsWhole)
    (x0 : Vec F S256x2x1024 .bf16) (x1 x2 : Vec F S2048x2x1024 .bf16) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__attn_kernel i arg1 harg1 arg2 harg2 arg3 harg3 arg4 harg4 arg5 harg5 arg6 harg6) K := by
  -- the printed body and its thirteen parts are their skeletons: twelve memory operations over the payloads
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold k1_part1_skel k1_part2_skel k1_part3_skel k1_part4_skel k1_part5_skel k1_part6_skel k1_part7_skel k1_part8_skel k1_part9_skel k1_part10_skel k1_part11_skel k1_part12_skel k1_part13_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the output buffer holds its two slab stores over what it held before; they tile it, so it reads as their canon
  refine (View.read_writes_eq_canon _ _ _ (cover1_5 _ _)).trans ?_
  -- both sides are now the same two pieces: the returned tuples project to their components, a load through a
  -- rectangle is the read contents at the rectangle's indices, and the two named constants are their literals
  unfold out1_5 store1_1 store1_0
  dsimp only
  simp only [View.readAt_eq_ld]
  sl_unfold_run_names
  rfl

end Cert.KernelIdeal.Hand

end
-- ==== Proof.Dats.lean ====
/-
  The two pipelines' proof data at a parameter `V` — what core `c`'s buffers hold when the region is entered: each
  window's block at a grid point, what the body leaves in each staging buffer, and the body obligation at every point
  from the bodies' triples.
-/
import proofs.«409386_j62869731279490_3_alg».proof.Proof.Outs
import proofs.«409386_j62869731279490_3_alg».proof.Proof.Body0
import proofs.«409386_j62869731279490_3_alg».proof.Proof.Body1
import proofs.«409386_j62869731279490_3_alg».proof.Proof.Gen.KernelIdeal.Launch
import proofs.«409386_j62869731279490_3_alg».proof.Proof.Gen.KernelIdeal.Skeleton
import proofs.«409386_j62869731279490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (pipeline 0), at the contents `V` it is entered from -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer at its block and the output's at `out0_3` of the input blocks; the invariant the scoped rest and
    the generator register, untouched; nothing owed. Full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1 (pipeline 1), at the contents `V` it is entered from -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer at its block and the output's at `out1_5` of the input blocks; the invariant the scoped rest and
    the generator register, untouched; nothing owed. The packed projection is read by three windows: its full share is
    dealt among them, a half and two quarters. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The run of @main: two stretches of host operations, each followed by a kernel region. At every boundary core `c`
  holds each unscoped buffer whole at a named valuation: the launch memory, then the first stretch applied, then the
  projection's result array replaced by what its pipeline's write-backs leave, then the second stretch applied, then
  the attention's result array replaced likewise. Every weakly fair execution terminates there: the arguments are as
  launched, and the program's result buffer holds the attention pipeline's final result array.

  The packed projection is read by three windows of the attention pipeline. At its entry the array's full share is
  dealt among them — a half and two quarters — and at its exit, no input array having been written, the three parts
  make the full share again.
-/
import proofs.«409386_j62869731279490_3_alg».proof.Proof.Dats
import proofs.«409386_j62869731279490_3_alg».proof.Proof.Gen.KernelIdeal.Launch
import proofs.«409386_j62869731279490_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch: what the projection region is entered from. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- The projection pipeline's final result array. -/
def A4 (c : Dev nD) : Buf (Elt F) ((c : Thread nD τ).loc main_v4) := (dat0 (U1 m) c).arrAt 3 cfg0.N
/-- At the projection region's exit: its result array replaced. -/
abbrev W2 : Dev nD → Valuation τ sig (Elt F) := fun c => Function.update (W1 m c) main_v4 (A4 m c)
abbrev U2 : (c : Dev nD) → (b : Ref sig .tc) → Buf (Elt F) ((c : Thread nD τ).loc b) := fun c b => W2 m c b
/-- After the second host stretch: what the attention region is entered from. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- The attention pipeline's final result array: the program's result. -/
def A7 (c : Dev nD) : Buf (Elt F) ((c : Thread nD τ).loc main_v7) := (dat1 (U3 m) c).arrAt 5 cfg1.N
/-- At the attention region's exit. -/
abbrev W4 : Dev nD → Valuation τ sig (Elt F) := fun c => Function.update (W3 m c) main_v7 (A7 m c)
abbrev U4 : (c : Dev nD) → (b : Ref sig .tc) → Buf (Elt F) ((c : Thread nD τ).loc b) := fun c b => W4 m c b

theorem W1_of (c : Dev nD) (r : Ref sig .tc) (h : r ∉ hostOps0_W) : W1 m c r = W0 m c r :=
  StableHlo.after_of_writes_sub hostOps0 _ hostOps0_writes h
theorem W2_of_ne (c : Dev nD) (r : Ref sig .tc) (h : r ∉ ([main_v4] : List (Ref sig .tc))) : W2 m c r = W1 m c r := by
  simp only [W2, Function.update_of_ne (StableHlo.devRef_ne_of_ne (List.ne_of_not_mem_cons h) : (Proc.devRef .tc r : DevRef τ sig) ≠ Proc.devRef .tc main_v4)]
theorem W2_main_v4 (c : Dev nD) : W2 m c (Proc.devRef .tc main_v4) = A4 m c := by
  simp only [W2, Function.update_self]
theorem W3_of (c : Dev nD) (r : Ref sig .tc) (h : r ∉ hostOps1_W) : W3 m c r = W2 m c r :=
  StableHlo.after_of_writes_sub hostOps1 _ hostOps1_writes h
theorem W4_of_ne (c : Dev nD) (r : Ref sig .tc) (h : r ∉ ([main_v7] : List (Ref sig .tc))) : W4 m c r = W3 m c r := by
  simp only [W4, Function.update_of_ne (StableHlo.devRef_ne_of_ne (List.ne_of_not_mem_cons h) : (Proc.devRef .tc r : DevRef τ sig) ≠ Proc.devRef .tc main_v7)]
theorem W4_main_v7 (c : Dev nD) : W4 m c (Proc.devRef .tc main_v7) = A7 m c := by
  simp only [W4, Function.update_self]

/-! ### The arguments end as launched -/

theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_of_ne m c main_arg4 (by decide)).trans <| (W1_of m c main_arg4 (by decide)).trans rfl

/-! ## The projection region's arrays at its exit -/

theorem hF0 (c : Dev nD) (w : Fin cfg0.W) : (dat0 (U1 m) c).arrAt w cfg0.N = U2 m c (Pipeline.arrRef spec0 w) :=
  match w with
  | ⟨0, _⟩ => (((dat0 (U1 m) c).arrAt_in 0 rfl _).trans (A_eq0 (U1 m) c 0)).trans (W2_of_ne m c main_v0 (by decide)).symm
  | ⟨1, _⟩ => (((dat0 (U1 m) c).arrAt_in 1 rfl _).trans (A_eq0 (U1 m) c 1)).trans (W2_of_ne m c main_v1 (by decide)).symm
  | ⟨2, _⟩ => (((dat0 (U1 m) c).arrAt_in 2 rfl _).trans (A_eq0 (U1 m) c 2)).trans (W2_of_ne m c main_v3 (by decide)).symm
  | ⟨3, _⟩ => (W2_main_v4 m c).symm
theorem hrest0 (c : Dev nD) : ∀ b, b ∉ Finset.univ.image (Pipeline.arrRef spec0) → U2 m c b = U1 m c b :=
  fun b hb => W2_of_ne m c b (by
    intro h; rw [List.mem_singleton] at h; subst h
    exact hb (Finset.mem_image.mpr ⟨3, Finset.mem_univ _, rfl⟩))

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The attention region's arrays: dealt at entry, joined at exit -/

/-- The attention pipeline's arrays, each a whole buffer, as points-tos at their shares. -/
theorem arrays1_eq (c : Dev nD) (G : (w : Fin cfg1.W) → Buf (Elt F) ((cfg1.win w).arr.view.loc (c.tc : Thread nD τ))) :
    ((pdats m 1 c).arrays G : sProp 𝕄)
      = bigSep Finset.univ fun w : Fin 6 => ((cfg1.win w).arr.view.loc (c.tc : Thread nD τ) ↦{(pdats m 1 c).share w} G w : sProp 𝕄) := by
  unfold Pipeline.Dat.arrays
  exact bigSep_congr fun w _ => by
    rw [show ((Pipeline.pin (pcfgs (F := F)) adm' 1).win w).arr.view.set = Finset.univ from (arr_whole1 w).set_eq_univ]
    rfl

/-- ENTRY: the core's unscoped buffers at the entry contents are the attention pipeline's arrays at those contents —
    the packed projection's full share dealt among its three windows — and the rest. -/
theorem arrays1_enter (c : Dev nD) :
    (unscopedBufs c (U3 m c) : sProp 𝕄)
      ⊢ iprop((pdats m 1 c).arrays ((pdats m 1 c).arrAt · 0) ∗ Pipeline.unscopedRest spec1 c (U3 m c)) := by
  rw [Pipeline.unscopedBufs_split₀ (Ix := Unit) (Name := ℕ) (U := UR sig nD τ) (Lvl := ℕ) cfgs 1 winFacts₀1.arr_unscoped c (U3 m c)]
  refine sep_mono ?_ .rfl
  rw [arrays1_eq, bigSep_W1]
  unfold Pipeline.arrBufs
  rw [bigSep_eq_bigSepL_of_eq [main_v5, main_v2, main_v6, main_v7] (by decide) (by decide)]
  simp only [bigSepL_cons_cons, bigSepL_singleton]
  show (iprop((((c.tc : Thread nD τ).loc main_v5) ↦{fullShare} U3 m c main_v5)
      ∗ (((c.tc : Thread nD τ).loc main_v2) ↦{fullShare} U3 m c main_v2)
      ∗ (((c.tc : Thread nD τ).loc main_v6) ↦{fullShare} U3 m c main_v6)
      ∗ (((c.tc : Thread nD τ).loc main_v7) ↦{fullShare} U3 m c main_v7)) : sProp 𝕄)
    ⊢ (iprop((((c.tc : Thread nD τ).loc main_v5) ↦{fullShare.left} U3 m c main_v5)
      ∗ (((c.tc : Thread nD τ).loc main_v5) ↦{fullShare.right.left} U3 m c main_v5)
      ∗ (((c.tc : Thread nD τ).loc main_v5) ↦{fullShare.right.right} U3 m c main_v5)
      ∗ (((c.tc : Thread nD τ).loc main_v2) ↦{fullShare} U3 m c main_v2)
      ∗ (((c.tc : Thread nD τ).loc main_v6) ↦{fullShare} U3 m c main_v6)
      ∗ (((c.tc : Thread nD τ).loc main_v7) ↦{fullShare} U3 m c main_v7)) : sProp 𝕄)
  iintro ⟨H5, H2, H6, H7⟩
  ihave Hs := (pointsTo_share (PosShare.mem_left_op_right fullShare)).1 $$ H5
  icases Hs with ⟨Ha, Hb⟩
  ihave Hs2 := (pointsTo_share (PosShare.mem_left_op_right fullShare.right)).1 $$ Hb
  icases Hs2 with ⟨Hb1, Hb2⟩
  isplitl [Ha]; · iexact Ha
  isplitl [Hb1]; · iexact Hb1
  isplitl [Hb2]; · iexact Hb2
  isplitl [H2]; · iexact H2
  isplitl [H6]; · iexact H6
  iexact H7

/-- The attention pipeline's arrays at its exit: the inputs as entered, the result array the pipeline's. -/
theorem hF1 (c : Dev nD) (w : Fin cfg1.W) : (dat1 (U3 m) c).arrAt w cfg1.N = U4 m c (Pipeline.arrRef spec1 w) :=
  match w with
  | ⟨0, _⟩ => (((dat1 (U3 m) c).arrAt_in 0 rfl _).trans (A_eq1 (U3 m) c 0)).trans (W4_of_ne m c main_v5 (by decide)).symm
  | ⟨1, _⟩ => (((dat1 (U3 m) c).arrAt_in 1 rfl _).trans (A_eq1 (U3 m) c 1)).trans (W4_of_ne m c main_v5 (by decide)).symm
  | ⟨2, _⟩ => (((dat1 (U3 m) c).arrAt_in 2 rfl _).trans (A_eq1 (U3 m) c 2)).trans (W4_of_ne m c main_v5 (by decide)).symm
  | ⟨3, _⟩ => (((dat1 (U3 m) c).arrAt_in 3 rfl _).trans (A_eq1 (U3 m) c 3)).trans (W4_of_ne m c main_v2 (by decide)).symm
  | ⟨4, _⟩ => (((dat1 (U3 m) c).arrAt_in 4 rfl _).trans (A_eq1 (U3 m) c 4)).trans (W4_of_ne m c main_v6 (by decide)).symm
  | ⟨5, _⟩ => (W4_main_v7 m c).symm
theorem hrest1 (c : Dev nD) : ∀ b, b ∉ Finset.univ.image (Pipeline.arrRef spec1) → U4 m c b = U3 m c b :=
  fun b hb => W4_of_ne m c b (by
    intro h; rw [List.mem_singleton] at h; subst h
    exact hb (Finset.mem_image.mpr ⟨5, Finset.mem_univ _, rfl⟩))

/-- EXIT: the arrays at their final contents — the inputs as entered, the three parts of the packed projection's share
    joined again — and the rest are the core's unscoped buffers at the exit contents. -/
theorem arrays1_exit (c : Dev nD) :
    iprop((pdats m 1 c).arrays ((pdats m 1 c).arrAt · cfg1.N) ∗ Pipeline.unscopedRest spec1 c (U3 m c))
      ⊢ (unscopedBufs c (U4 m c) : sProp 𝕄) := by
  rw [Pipeline.unscopedBufs_split₀ (Ix := Unit) (Name := ℕ) (U := UR sig nD τ) (Lvl := ℕ) cfgs 1 winFacts₀1.arr_unscoped c (U4 m c)]
  refine sep_mono ?_ (Entails.of_eq ?_)
  · rw [arrays1_eq, bigSep_W1]
    unfold Pipeline.arrBufs
    rw [bigSep_eq_bigSepL_of_eq [main_v5, main_v2, main_v6, main_v7] (by decide) (by decide)]
    simp only [bigSepL_cons_cons, bigSepL_singleton]
    have e0 : (pdats m 1 c).arrAt 0 cfg1.N = U4 m c main_v5 := hF1 m c 0
    have e1 : (pdats m 1 c).arrAt 1 cfg1.N = U4 m c main_v5 := hF1 m c 1
    have e2 : (pdats m 1 c).arrAt 2 cfg1.N = U4 m c main_v5 := hF1 m c 2
    have e3 : (pdats m 1 c).arrAt 3 cfg1.N = U4 m c main_v2 := hF1 m c 3
    have e4 : (pdats m 1 c).arrAt 4 cfg1.N = U4 m c main_v6 := hF1 m c 4
    have e5 : (pdats m 1 c).arrAt 5 cfg1.N = U4 m c main_v7 := hF1 m c 5
    rw [e0, e1, e2, e3, e4, e5]
    show (iprop((((c.tc : Thread nD τ).loc main_v5) ↦{fullShare.left} U4 m c main_v5)
        ∗ (((c.tc : Thread nD τ).loc main_v5) ↦{fullShare.right.left} U4 m c main_v5)
        ∗ (((c.tc : Thread nD τ).loc main_v5) ↦{fullShare.right.right} U4 m c main_v5)
        ∗ (((c.tc : Thread nD τ).loc main_v2) ↦{fullShare} U4 m c main_v2)
        ∗ (((c.tc : Thread nD τ).loc main_v6) ↦{fullShare} U4 m c main_v6)
        ∗ (((c.tc : Thread nD τ).loc main_v7) ↦{fullShare} U4 m c main_v7)) : sProp 𝕄)
      ⊢ (iprop((((c.tc : Thread nD τ).loc main_v5) ↦{fullShare} U4 m c main_v5)
        ∗ (((c.tc : Thread nD τ).loc main_v2) ↦{fullShare} U4 m c main_v2)
        ∗ (((c.tc : Thread nD τ).loc main_v6) ↦{fullShare} U4 m c main_v6)
        ∗ (((c.tc : Thread nD τ).loc main_v7) ↦{fullShare} U4 m c main_v7)) : sProp 𝕄)
    iintro ⟨Ha, Hb1, Hb2, H2, H6, H7⟩
    isplitl [Ha Hb1 Hb2]
    · iapply (pointsTo_share (PosShare.mem_left_op_right fullShare)).2
      isplitl [Ha]; · iexact Ha
      iapply (pointsTo_share (PosShare.mem_left_op_right fullShare.right)).2
      isplitl [Hb1]; · iexact Hb1
      iexact Hb2
    isplitl [H2]; · iexact H2
    isplitl [H6]; · iexact H6
    iexact H7
  · unfold Pipeline.unscopedRest
    exact bigSep_congr fun b hb => by rw [hrest1 m c b (Finset.mem_sdiff.mp hb).2]

/-! ## The regions as segments -/

set_option backward.isDefEq.respectTransparency.types false in
/-- The projection region over the thread state: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := arrays1_enter m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting; the result buffer ends at the attention pipeline's final result array, each argument as launched. -/
theorem run_main (ρ : Dev nD → PrngReg) : θ_run defs (onTc (τ := τ) (main (F := F))) ⟨m, fun _ => 0, ρ⟩ (fun r => ∀ c : Dev nD,
      r.2.mem ((c.tc : Thread nD τ).loc main_v7) = A7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_main_v7 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Hand

end
-- ==== Proof.WordLevel.Outs.lean ====
/-
  What each kernel body leaves in its output staging buffer, as a pure function of the blocks it was handed.

  The projection kernel stores one value over its whole 1024 × 3072 buffer. The attention kernel stores twice into its
  256 × 2 × 1024 buffer, once per batch entry: the slab `[:, n, :]` receives the output projection of the sixteen
  concatenated head outputs for entry `n`, computed from the slabs `[:, n, :]` of the query tile and of the whole
  key and value arrays. The two functions below thread the body's values exactly as the body does, statement
  window by statement window.
-/
import proofs.«409386_j62869731279490_3_alg».proof.Proof.Gen.Kernel.Skeleton
import proofs.«409386_j62869731279490_3_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Cert.Kernel Cert.Kernel.Gen

variable {F : FTy → Type} [FloatOps F]

/-! ## The projection kernel -/

/-- The whole input tile, the whole weight, the whole bias row, the whole output tile. -/
abbrev rX : Rect S1024x1024 := Rect.unit (s := S1024x1024) ![0, 0] S1024x1024.size inb_S1024x1024_S1024x1024_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0
abbrev rO : Rect S1024x3072 := Rect.unit (s := S1024x3072) ![0, 0] S1024x3072.size inb_S1024x3072_S1024x3072_0_0

/-- The output tile after the body: its one store, over the whole tile. -/
def out0_3 (x0 : Vec F S1024x1024 .f32) (x1 : Vec F S3072x1024 .bf16) (x2 : Vec F S1x3072 .f32) : Vec F S1024x3072 .bf16 :=
  View.canon [⟨rO, k0_pay1 (View.ld x0 rX) (View.ld x1 rW) (View.ld x2 rB)⟩]

/-- The one store covers the tile. -/
theorem cover0_3 (p0 : Vec F S1024x3072 .bf16) (y : S1024x3072.Idx) :
    ∃ pc ∈ ([⟨rO, p0⟩] : List (View.Piece (Elt F) S1024x3072 .bf16)), y ∈ pc.1.set :=
  View.cover_of_tiled [⟨rO, p0⟩] S1024x3072.size (by rfl) y

/-! ## The attention kernel -/

/-- Batch entry `0`'s and entry `1`'s slab of a 256-row tile and of a 2048-row array; the whole output-projection
    weight and bias row. -/
abbrev rT0 : Rect S256x2x1024 := Rect.unit (s := S256x2x1024) ![0, 0, 0] S256x1x1024.size inb_S256x2x1024_S256x1x1024_0_0_0
abbrev rT1 : Rect S256x2x1024 := Rect.unit (s := S256x2x1024) ![0, 1, 0] S256x1x1024.size inb_S256x2x1024_S256x1x1024_0_1_0
abbrev rA0 : Rect S2048x2x1024 := Rect.unit (s := S2048x2x1024) ![0, 0, 0] S2048x1x1024.size inb_S2048x2x1024_S2048x1x1024_0_0_0
abbrev rA1 : Rect S2048x2x1024 := Rect.unit (s := S2048x2x1024) ![0, 1, 0] S2048x1x1024.size inb_S2048x2x1024_S2048x1x1024_0_1_0
abbrev rWo : Rect S1024x1024 := Rect.unit (s := S1024x1024) ![0, 0] S1024x1024.size inb_S1024x1024_S1024x1024_0_0
abbrev rBo : Rect S1x1024 := Rect.unit (s := S1x1024) ![0, 0] S1x1024.size inb_S1x1024_S1x1024_0_0

/-- What the body stores for batch entry `0`, from the loaded weight `w0`, bias row `b0` and the entry's slabs of the
    query tile, the keys and the values. -/
def store1_0 (w0 : Vec F S1024x1024 .bf16) (b0 : Vec F S1x1024 .f32) (q0 : Vec F S256x1x1024 .bf16)
    (k0 v0 : Vec F S2048x1x1024 .bf16) : FVec F S256x1x1024 .f32 :=
  let v1 := k1_pay4 w0
  let v3 := k1_pay5 b0
  let v5 := k1_pay6 q0
  let v7 := k1_pay7 k0
  let v9 := k1_pay8 v0
  let v27 := k1_pay9 q0 k0 v0
  let v30 := k1_pay10 v0
  let v37 := k1_pay11 q0 k0
  let v45 := k1_pay12 v30 v37
  let v63 := k1_pay13 v5 v7 v9
  let v81 := k1_pay14 v5 v7 v9
  let v82 := k1_pay15 v5
  let v83 := k1_pay16 v7
  let v84 := k1_pay17 v9
  let cst_31 : FVec F S256x2048 .f32 := constant S256x2048 .f32 0x00000000#32
  let v99 := k1_pay18 v82 v83 v84 cst_31
  let v117 := k1_pay19 v5 v7 v9
  let v120 := k1_pay20 v9
  let v130 := k1_pay22 v5 v7
  let v131 := k1_pay23 v5 v7
  let v135 := k1_pay24 v120 v130 v131
  let v153 := k1_pay25 v5 v7 v9
  let v171 := k1_pay26 v5 v7 v9
  let v174 := k1_pay27 v9
  let v177 := k1_pay28 v5 v7
  let v189 := k1_pay29 v174 v177
  let v207 := k1_pay30 v5 v7 v9
  let v225 := k1_pay31 v5 v7 v9
  let v243 := k1_pay32 v5 v7 v9
  let v261 := k1_pay33 v5 v7 v9
  let v264 := k1_pay34 v9
  let v272 := k1_pay35 v5 v7
  k1_pay36 v1 v3 v5 v7 v9 v27 v45 v63 v81 v99 v117 v135 v153 v171 v189 v207 v225 v243 v261 v264 v272

/-- What the body stores for batch entry `1`, likewise. -/
def store1_1 (w0 : Vec F S1024x1024 .bf16) (b0 : Vec F S1x1024 .f32) (q1 : Vec F S256x1x1024 .bf16)
    (k1 v1' : Vec F S2048x1x1024 .bf16) : FVec F S256x1x1024 .f32 :=
  let v1 := k1_pay4 w0
  let v3 := k1_pay5 b0
  let v306 := k1_pay37 q1
  let v308 := k1_pay38 k1
  let v310 := k1_pay39 v1'
  let v311 := k1_pay40 q1
  let v328 := k1_pay41 v308 v310 v311
  let v346 := k1_pay42 v306 v308 v310
  let v349 := k1_pay43 v310
  let v357 := k1_pay44 v306 v308
  let v364 := k1_pay45 v349 v357
  let v382 := k1_pay46 v306 v308 v310
  let v400 := k1_pay47 v306 v308 v310
  let v403 := k1_pay48 v310
  let v404 := k1_pay49 v306 v308
  let cst_129 : F .f32 := Scalar.ofBits .f32 0x3E000000#32
  let v418 := k1_pay50 v403 v404 cst_129
  let v436 := k1_pay51 v306 v308 v310
  let v449 := k1_pay53 v306 v308
  let v451 := k1_pay54 v306 v308 v310
  let v454 := k1_pay55 v449 v451
  let v472 := k1_pay56 v306 v308 v310
  let v490 := k1_pay57 v306 v308 v310
  let v493 := k1_pay58 v310
  let v496 := k1_pay59 v306 v308
  let v498 := k1_pay60 v306 v308
  let v508 := k1_pay61 v493 v496 v498
  let v526 := k1_pay62 v306 v308 v310
  let v544 := k1_pay63 v306 v308 v310
  let v545 := k1_pay64 v306
  let v546 := k1_pay65 v308
  let v562 := k1_pay66 v310 v545 v546
  let v580 := k1_pay67 v306 v308 v310
  let v583 := k1_pay68 v310
  let v591 := k1_pay69 v306 v308
  let v592 := k1_pay70 v306 v308
  let v597 := k1_pay1 v583 v591 v592
  let v599 := k1_pay2 v328 v346 v364 v382 v400 v418 v436 v454 v472 v490 v508 v526 v544 v562 v580 v597
  k1_pay3 v1 v3 v599

/-- The output tile after the body: its two stores, the later one first. -/
def out1_5 (x0 : Vec F S256x2x1024 .bf16) (x1 x2 : Vec F S2048x2x1024 .bf16) (x3 : Vec F S1024x1024 .bf16)
    (x4 : Vec F S1x1024 .f32) : Vec F S256x2x1024 .f32 :=
  View.canon [⟨rT1, store1_1 (View.ld x3 rWo) (View.ld x4 rBo) (View.ld x0 rT1) (View.ld x1 rA1) (View.ld x2 rA1)⟩,
    ⟨rT0, store1_0 (View.ld x3 rWo) (View.ld x4 rBo) (View.ld x0 rT0) (View.ld x1 rA0) (View.ld x2 rA0)⟩]

/-- The two slabs tile the buffer. -/
theorem cover1_5 (p1 p0 : Vec F S256x1x1024 .f32) (y : S256x2x1024.Idx) :
    ∃ pc ∈ ([⟨rT1, p1⟩, ⟨rT0, p0⟩] : List (View.Piece (Elt F) S256x2x1024 .f32)), y ∈ pc.1.set :=
  View.cover_of_tiledL [⟨rT1, p1⟩, ⟨rT0, p0⟩] S256x1x1024.size (by sl_kernel_rfl) y

end Cert.Kernel.Hand

end
-- ==== Proof.WordLevel.Body0.lean ====
/-
  The projection kernel's body as a triple: handed its three input tiles whole and its output tile at anything, it
  returns the inputs as they were and the output tile at `out0_3` of them.
-/
import proofs.«409386_j62869731279490_3_alg».proof.Proof.WordLevel.Outs
import proofs.«409386_j62869731279490_3_alg».proof.Proof.Gen.Kernel.Skeleton
import proofs.«409386_j62869731279490_3_alg».proof.Proof.Gen.Kernel.Launch
import proofs.«409386_j62869731279490_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 1000000 in
/-- The projection body on whole staging memrefs. -/
theorem sound_kernel0 (c : Dev nD) (E : Set ℕ) (i : grid0.Coords)
    (arg1 : Memref sig .tc .vmem S1024x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Hand

end
-- ==== Proof.WordLevel.Body1.lean ====
/-
  The attention kernel's body as a triple: handed its five input blocks whole and its output tile at anything, it
  returns the inputs as they were and the output tile at `out1_5` of them.
-/
import proofs.«409386_j62869731279490_3_alg».proof.Proof.WordLevel.Outs
import proofs.«409386_j62869731279490_3_alg».proof.Proof.Gen.Kernel.Skeleton
import proofs.«409386_j62869731279490_3_alg».proof.Proof.Gen.Kernel.Launch
import proofs.«409386_j62869731279490_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The attention body on whole staging memrefs. -/
theorem sound_kernel1 (c : Dev nD) (E : Set ℕ) (i : grid1.Coords)
    (arg1 : Memref sig .tc .vmem S256x2x1024 .bf16) (harg1 : arg1.IsWhole) (arg2 : Memref sig .tc .vmem S2048x2x1024 .bf16) (harg2 : arg2.IsWhole)
    (arg3 : Memref sig .tc .vmem S2048x2x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S256x2x1024 .f32) (harg6 : arg6.IsWhole)
    (x0 : Vec F S256x2x1024 .bf16) (x1 x2 : Vec F S2048x2x1024 .bf16) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__attn_kernel i arg1 harg1 arg2 harg2 arg3 harg3 arg4 harg4 arg5 harg5 arg6 harg6) K := by
  -- the printed body and its thirteen parts are their skeletons: twelve memory operations over the payloads
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold k1_part1_skel k1_part2_skel k1_part3_skel k1_part4_skel k1_part5_skel k1_part6_skel k1_part7_skel k1_part8_skel k1_part9_skel k1_part10_skel k1_part11_skel k1_part12_skel k1_part13_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the output buffer holds its two slab stores over what it held before; they tile it, so it reads as their canon
  refine (View.read_writes_eq_canon _ _ _ (cover1_5 _ _)).trans ?_
  -- both sides are now the same two pieces: the returned tuples project to their components, a load through a
  -- rectangle is the read contents at the rectangle's indices, and the two named constants are their literals
  unfold out1_5 store1_1 store1_0
  dsimp only
  simp only [View.readAt_eq_ld]
  sl_unfold_run_names
  rfl

end Cert.Kernel.Hand

end
-- ==== Proof.WordLevel.Dats.lean ====
/-
  The two pipelines' proof data at a parameter `V` — what core `c`'s buffers hold when the region is entered: each
  window's block at a grid point, what the body leaves in each staging buffer, and the body obligation at every point
  from the bodies' triples.
-/
import proofs.«409386_j62869731279490_3_alg».proof.Proof.WordLevel.Outs
import proofs.«409386_j62869731279490_3_alg».proof.Proof.WordLevel.Body0
import proofs.«409386_j62869731279490_3_alg».proof.Proof.WordLevel.Body1
import proofs.«409386_j62869731279490_3_alg».proof.Proof.Gen.Kernel.Launch
import proofs.«409386_j62869731279490_3_alg».proof.Proof.Gen.Kernel.Skeleton
import proofs.«409386_j62869731279490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (pipeline 0), at the contents `V` it is entered from -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer at its block and the output's at `out0_3` of the input blocks; the invariant the scoped rest and
    the generator register, untouched; nothing owed. Full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1 (pipeline 1), at the contents `V` it is entered from -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer at its block and the output's at `out1_5` of the input blocks; the invariant the scoped rest and
    the generator register, untouched; nothing owed. The packed projection is read by three windows: its full share is
    dealt among them, a half and two quarters. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordLevel.Run.lean ====
/-
  The run of @main: two stretches of host operations, each followed by a kernel region. At every boundary core `c`
  holds each unscoped buffer whole at a named valuation: the launch memory, then the first stretch applied, then the
  projection's result array replaced by what its pipeline's write-backs leave, then the second stretch applied, then
  the attention's result array replaced likewise. Every weakly fair execution terminates there: the arguments are as
  launched, and the program's result buffer holds the attention pipeline's final result array.

  The packed projection is read by three windows of the attention pipeline. At its entry the array's full share is
  dealt among them — a half and two quarters — and at its exit, no input array having been written, the three parts
  make the full share again.
-/
import proofs.«409386_j62869731279490_3_alg».proof.Proof.WordLevel.Dats
import proofs.«409386_j62869731279490_3_alg».proof.Proof.Gen.Kernel.Launch
import proofs.«409386_j62869731279490_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch: what the projection region is entered from. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- The projection pipeline's final result array. -/
def A4 (c : Dev nD) : Buf (Elt F) ((c : Thread nD τ).loc main_v4) := (dat0 (U1 m) c).arrAt 3 cfg0.N
/-- At the projection region's exit: its result array replaced. -/
abbrev W2 : Dev nD → Valuation τ sig (Elt F) := fun c => Function.update (W1 m c) main_v4 (A4 m c)
abbrev U2 : (c : Dev nD) → (b : Ref sig .tc) → Buf (Elt F) ((c : Thread nD τ).loc b) := fun c b => W2 m c b
/-- After the second host stretch: what the attention region is entered from. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- The attention pipeline's final result array: the program's result. -/
def A7 (c : Dev nD) : Buf (Elt F) ((c : Thread nD τ).loc main_v7) := (dat1 (U3 m) c).arrAt 5 cfg1.N
/-- At the attention region's exit. -/
abbrev W4 : Dev nD → Valuation τ sig (Elt F) := fun c => Function.update (W3 m c) main_v7 (A7 m c)
abbrev U4 : (c : Dev nD) → (b : Ref sig .tc) → Buf (Elt F) ((c : Thread nD τ).loc b) := fun c b => W4 m c b

theorem W1_of (c : Dev nD) (r : Ref sig .tc) (h : r ∉ hostOps0_W) : W1 m c r = W0 m c r :=
  StableHlo.after_of_writes_sub hostOps0 _ hostOps0_writes h
theorem W2_of_ne (c : Dev nD) (r : Ref sig .tc) (h : r ∉ ([main_v4] : List (Ref sig .tc))) : W2 m c r = W1 m c r := by
  simp only [W2, Function.update_of_ne (StableHlo.devRef_ne_of_ne (List.ne_of_not_mem_cons h) : (Proc.devRef .tc r : DevRef τ sig) ≠ Proc.devRef .tc main_v4)]
theorem W2_main_v4 (c : Dev nD) : W2 m c (Proc.devRef .tc main_v4) = A4 m c := by
  simp only [W2, Function.update_self]
theorem W3_of (c : Dev nD) (r : Ref sig .tc) (h : r ∉ hostOps1_W) : W3 m c r = W2 m c r :=
  StableHlo.after_of_writes_sub hostOps1 _ hostOps1_writes h
theorem W4_of_ne (c : Dev nD) (r : Ref sig .tc) (h : r ∉ ([main_v7] : List (Ref sig .tc))) : W4 m c r = W3 m c r := by
  simp only [W4, Function.update_of_ne (StableHlo.devRef_ne_of_ne (List.ne_of_not_mem_cons h) : (Proc.devRef .tc r : DevRef τ sig) ≠ Proc.devRef .tc main_v7)]
theorem W4_main_v7 (c : Dev nD) : W4 m c (Proc.devRef .tc main_v7) = A7 m c := by
  simp only [W4, Function.update_self]

/-! ### The arguments end as launched -/

theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_of_ne m c main_arg4 (by decide)).trans <| (W1_of m c main_arg4 (by decide)).trans rfl

/-! ## The projection region's arrays at its exit -/

theorem hF0 (c : Dev nD) (w : Fin cfg0.W) : (dat0 (U1 m) c).arrAt w cfg0.N = U2 m c (Pipeline.arrRef spec0 w) :=
  match w with
  | ⟨0, _⟩ => (((dat0 (U1 m) c).arrAt_in 0 rfl _).trans (A_eq0 (U1 m) c 0)).trans (W2_of_ne m c main_v0 (by decide)).symm
  | ⟨1, _⟩ => (((dat0 (U1 m) c).arrAt_in 1 rfl _).trans (A_eq0 (U1 m) c 1)).trans (W2_of_ne m c main_v1 (by decide)).symm
  | ⟨2, _⟩ => (((dat0 (U1 m) c).arrAt_in 2 rfl _).trans (A_eq0 (U1 m) c 2)).trans (W2_of_ne m c main_v3 (by decide)).symm
  | ⟨3, _⟩ => (W2_main_v4 m c).symm
theorem hrest0 (c : Dev nD) : ∀ b, b ∉ Finset.univ.image (Pipeline.arrRef spec0) → U2 m c b = U1 m c b :=
  fun b hb => W2_of_ne m c b (by
    intro h; rw [List.mem_singleton] at h; subst h
    exact hb (Finset.mem_image.mpr ⟨3, Finset.mem_univ _, rfl⟩))

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The attention region's arrays: dealt at entry, joined at exit -/

/-- The attention pipeline's arrays, each a whole buffer, as points-tos at their shares. -/
theorem arrays1_eq (c : Dev nD) (G : (w : Fin cfg1.W) → Buf (Elt F) ((cfg1.win w).arr.view.loc (c.tc : Thread nD τ))) :
    ((pdats m 1 c).arrays G : sProp 𝕄)
      = bigSep Finset.univ fun w : Fin 6 => ((cfg1.win w).arr.view.loc (c.tc : Thread nD τ) ↦{(pdats m 1 c).share w} G w : sProp 𝕄) := by
  unfold Pipeline.Dat.arrays
  exact bigSep_congr fun w _ => by
    rw [show ((Pipeline.pin (pcfgs (F := F)) adm' 1).win w).arr.view.set = Finset.univ from (arr_whole1 w).set_eq_univ]
    rfl

/-- ENTRY: the core's unscoped buffers at the entry contents are the attention pipeline's arrays at those contents —
    the packed projection's full share dealt among its three windows — and the rest. -/
theorem arrays1_enter (c : Dev nD) :
    (unscopedBufs c (U3 m c) : sProp 𝕄)
      ⊢ iprop((pdats m 1 c).arrays ((pdats m 1 c).arrAt · 0) ∗ Pipeline.unscopedRest spec1 c (U3 m c)) := by
  rw [Pipeline.unscopedBufs_split₀ (Ix := Unit) (Name := ℕ) (U := UR sig nD τ) (Lvl := ℕ) cfgs 1 winFacts₀1.arr_unscoped c (U3 m c)]
  refine sep_mono ?_ .rfl
  rw [arrays1_eq, bigSep_W1]
  unfold Pipeline.arrBufs
  rw [bigSep_eq_bigSepL_of_eq [main_v5, main_v2, main_v6, main_v7] (by decide) (by decide)]
  simp only [bigSepL_cons_cons, bigSepL_singleton]
  show (iprop((((c.tc : Thread nD τ).loc main_v5) ↦{fullShare} U3 m c main_v5)
      ∗ (((c.tc : Thread nD τ).loc main_v2) ↦{fullShare} U3 m c main_v2)
      ∗ (((c.tc : Thread nD τ).loc main_v6) ↦{fullShare} U3 m c main_v6)
      ∗ (((c.tc : Thread nD τ).loc main_v7) ↦{fullShare} U3 m c main_v7)) : sProp 𝕄)
    ⊢ (iprop((((c.tc : Thread nD τ).loc main_v5) ↦{fullShare.left} U3 m c main_v5)
      ∗ (((c.tc : Thread nD τ).loc main_v5) ↦{fullShare.right.left} U3 m c main_v5)
      ∗ (((c.tc : Thread nD τ).loc main_v5) ↦{fullShare.right.right} U3 m c main_v5)
      ∗ (((c.tc : Thread nD τ).loc main_v2) ↦{fullShare} U3 m c main_v2)
      ∗ (((c.tc : Thread nD τ).loc main_v6) ↦{fullShare} U3 m c main_v6)
      ∗ (((c.tc : Thread nD τ).loc main_v7) ↦{fullShare} U3 m c main_v7)) : sProp 𝕄)
  iintro ⟨H5, H2, H6, H7⟩
  ihave Hs := (pointsTo_share (PosShare.mem_left_op_right fullShare)).1 $$ H5
  icases Hs with ⟨Ha, Hb⟩
  ihave Hs2 := (pointsTo_share (PosShare.mem_left_op_right fullShare.right)).1 $$ Hb
  icases Hs2 with ⟨Hb1, Hb2⟩
  isplitl [Ha]; · iexact Ha
  isplitl [Hb1]; · iexact Hb1
  isplitl [Hb2]; · iexact Hb2
  isplitl [H2]; · iexact H2
  isplitl [H6]; · iexact H6
  iexact H7

/-- The attention pipeline's arrays at its exit: the inputs as entered, the result array the pipeline's. -/
theorem hF1 (c : Dev nD) (w : Fin cfg1.W) : (dat1 (U3 m) c).arrAt w cfg1.N = U4 m c (Pipeline.arrRef spec1 w) :=
  match w with
  | ⟨0, _⟩ => (((dat1 (U3 m) c).arrAt_in 0 rfl _).trans (A_eq1 (U3 m) c 0)).trans (W4_of_ne m c main_v5 (by decide)).symm
  | ⟨1, _⟩ => (((dat1 (U3 m) c).arrAt_in 1 rfl _).trans (A_eq1 (U3 m) c 1)).trans (W4_of_ne m c main_v5 (by decide)).symm
  | ⟨2, _⟩ => (((dat1 (U3 m) c).arrAt_in 2 rfl _).trans (A_eq1 (U3 m) c 2)).trans (W4_of_ne m c main_v5 (by decide)).symm
  | ⟨3, _⟩ => (((dat1 (U3 m) c).arrAt_in 3 rfl _).trans (A_eq1 (U3 m) c 3)).trans (W4_of_ne m c main_v2 (by decide)).symm
  | ⟨4, _⟩ => (((dat1 (U3 m) c).arrAt_in 4 rfl _).trans (A_eq1 (U3 m) c 4)).trans (W4_of_ne m c main_v6 (by decide)).symm
  | ⟨5, _⟩ => (W4_main_v7 m c).symm
theorem hrest1 (c : Dev nD) : ∀ b, b ∉ Finset.univ.image (Pipeline.arrRef spec1) → U4 m c b = U3 m c b :=
  fun b hb => W4_of_ne m c b (by
    intro h; rw [List.mem_singleton] at h; subst h
    exact hb (Finset.mem_image.mpr ⟨5, Finset.mem_univ _, rfl⟩))

/-- EXIT: the arrays at their final contents — the inputs as entered, the three parts of the packed projection's share
    joined again — and the rest are the core's unscoped buffers at the exit contents. -/
theorem arrays1_exit (c : Dev nD) :
    iprop((pdats m 1 c).arrays ((pdats m 1 c).arrAt · cfg1.N) ∗ Pipeline.unscopedRest spec1 c (U3 m c))
      ⊢ (unscopedBufs c (U4 m c) : sProp 𝕄) := by
  rw [Pipeline.unscopedBufs_split₀ (Ix := Unit) (Name := ℕ) (U := UR sig nD τ) (Lvl := ℕ) cfgs 1 winFacts₀1.arr_unscoped c (U4 m c)]
  refine sep_mono ?_ (Entails.of_eq ?_)
  · rw [arrays1_eq, bigSep_W1]
    unfold Pipeline.arrBufs
    rw [bigSep_eq_bigSepL_of_eq [main_v5, main_v2, main_v6, main_v7] (by decide) (by decide)]
    simp only [bigSepL_cons_cons, bigSepL_singleton]
    have e0 : (pdats m 1 c).arrAt 0 cfg1.N = U4 m c main_v5 := hF1 m c 0
    have e1 : (pdats m 1 c).arrAt 1 cfg1.N = U4 m c main_v5 := hF1 m c 1
    have e2 : (pdats m 1 c).arrAt 2 cfg1.N = U4 m c main_v5 := hF1 m c 2
    have e3 : (pdats m 1 c).arrAt 3 cfg1.N = U4 m c main_v2 := hF1 m c 3
    have e4 : (pdats m 1 c).arrAt 4 cfg1.N = U4 m c main_v6 := hF1 m c 4
    have e5 : (pdats m 1 c).arrAt 5 cfg1.N = U4 m c main_v7 := hF1 m c 5
    rw [e0, e1, e2, e3, e4, e5]
    show (iprop((((c.tc : Thread nD τ).loc main_v5) ↦{fullShare.left} U4 m c main_v5)
        ∗ (((c.tc : Thread nD τ).loc main_v5) ↦{fullShare.right.left} U4 m c main_v5)
        ∗ (((c.tc : Thread nD τ).loc main_v5) ↦{fullShare.right.right} U4 m c main_v5)
        ∗ (((c.tc : Thread nD τ).loc main_v2) ↦{fullShare} U4 m c main_v2)
        ∗ (((c.tc : Thread nD τ).loc main_v6) ↦{fullShare} U4 m c main_v6)
        ∗ (((c.tc : Thread nD τ).loc main_v7) ↦{fullShare} U4 m c main_v7)) : sProp 𝕄)
      ⊢ (iprop((((c.tc : Thread nD τ).loc main_v5) ↦{fullShare} U4 m c main_v5)
        ∗ (((c.tc : Thread nD τ).loc main_v2) ↦{fullShare} U4 m c main_v2)
        ∗ (((c.tc : Thread nD τ).loc main_v6) ↦{fullShare} U4 m c main_v6)
        ∗ (((c.tc : Thread nD τ).loc main_v7) ↦{fullShare} U4 m c main_v7)) : sProp 𝕄)
    iintro ⟨Ha, Hb1, Hb2, H2, H6, H7⟩
    isplitl [Ha Hb1 Hb2]
    · iapply (pointsTo_share (PosShare.mem_left_op_right fullShare)).2
      isplitl [Ha]; · iexact Ha
      iapply (pointsTo_share (PosShare.mem_left_op_right fullShare.right)).2
      isplitl [Hb1]; · iexact Hb1
      iexact Hb2
    isplitl [H2]; · iexact H2
    isplitl [H6]; · iexact H6
    iexact H7
  · unfold Pipeline.unscopedRest
    exact bigSep_congr fun b hb => by rw [hrest1 m c b (Finset.mem_sdiff.mp hb).2]

/-! ## The regions as segments -/

set_option backward.isDefEq.respectTransparency.types false in
/-- The projection region over the thread state: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := arrays1_enter m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting; the result buffer ends at the attention pipeline's final result array, each argument as launched. -/
theorem run_main (ρ : Dev nD → PrngReg) : θ_run defs (onTc (τ := τ) (main (F := F))) ⟨m, fun _ => 0, ρ⟩ (fun r => ∀ c : Dev nD,
      r.2.mem ((c.tc : Thread nD τ).loc main_v7) = A7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_main_v7 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Hand

end
-- ==== Proof.MhaSpec.lean ====
/-
  The mathematics of the statement, with no program in it: multi-head self-attention over a sequence of 2048
  positions, batch 2, model width 1024 = 16 heads × 64, on the extended reals.

  * A linear layer's entry is a row of the input against a row of the weight, plus a bias entry (`lin`).
  * The packed projection `qkv` has 3072 columns: query, key and value, each 1024 wide, head `h` owning the 64
    columns `64·h … 64·h+63` of its third (`qCol`, `kCol`, `vCol`).
  * A head's score of a query row against key row `m` is their dot product over the head's 64 columns times the
    scale; the row's weights are `exp (score − row maximum)` (`wt`), the maximum taken from `−∞` (`rowMax`).
  * The kernel scales the finished dot product and divides the weighted sum of the values by the sum of the weights
    (`scoreK`, `headK`); the reference scales the query before the dot product and divides each weight by their
    sum before weighting the values (`scoreR`, `headR`).
  * The output is a linear layer over the 1024 concatenated head outputs (`outK`, `outR`).
-/
import Idealize.ShloMosaic.PureOps.Ideal
import Idealize.ShloMosaic.Lib.ValueIdx

noncomputable section

namespace Cert.Mha

open Idealize.ShloMosaic

/-- An entry of a linear layer: `∑ e, x e · w e + b`. -/
def lin {C : Nat} (x w : Fin C → EReal) (b : EReal) : EReal := (∑ e : Fin C, x e * w e) + b

/-- The maximum of a row, folded from `−∞`. -/
def rowMax {n : Nat} (s : Fin n → EReal) : EReal := (Finset.univ : Finset (Fin n)).fold max ⊥ s

/-- Column `64·h + d` of the query third of the packed projection. -/
def qCol (h : Fin 16) (d : Fin 64) : Fin 3072 := ⟨64 * h.val + d.val, by omega⟩
/-- Column `1024 + 64·h + d`: the key third. -/
def kCol (h : Fin 16) (d : Fin 64) : Fin 3072 := ⟨1024 + 64 * h.val + d.val, by omega⟩
/-- Column `2048 + 64·h + d`: the value third. -/
def vCol (h : Fin 16) (d : Fin 64) : Fin 3072 := ⟨2048 + 64 * h.val + d.val, by omega⟩
/-- The head a column of the concatenated head outputs belongs to, and its place inside the head. -/
def headOf (e : Fin 1024) : Fin 16 := ⟨e.val / 64, by omega⟩
def inHead (e : Fin 1024) : Fin 64 := ⟨e.val % 64, by omega⟩

/-- A row's weights: `exp (s m − max s)`. -/
def wt (s : Fin 2048 → EReal) (m : Fin 2048) : EReal := Ideal.exp (s m - rowMax s)

/-- The kernel's score: the dot product, then the scale. -/
def scoreK (c : EReal) (q : Fin 64 → EReal) (k : Fin 2048 → Fin 64 → EReal) (m : Fin 2048) : EReal :=
  (∑ e : Fin 64, q e * k m e) * c
/-- The reference's score: the query scaled, then the dot product. -/
def scoreR (c : EReal) (q : Fin 64 → EReal) (k : Fin 2048 → Fin 64 → EReal) (m : Fin 2048) : EReal :=
  ∑ e : Fin 64, (q e * c) * k m e

/-- One coordinate of one head's output for one query row, as the kernel computes it: the weighted sum of the value
    column `v`, divided by the sum of the weights. -/
def headK (c : EReal) (q : Fin 64 → EReal) (k : Fin 2048 → Fin 64 → EReal) (v : Fin 2048 → EReal) : EReal :=
  Ideal.div (∑ m : Fin 2048, wt (scoreK c q k) m * v m) (∑ m : Fin 2048, wt (scoreK c q k) m)
/-- The same as the reference computes it: each weight divided by their sum, then the weighted sum. -/
def headR (c : EReal) (q : Fin 64 → EReal) (k : Fin 2048 → Fin 64 → EReal) (v : Fin 2048 → EReal) : EReal :=
  ∑ m : Fin 2048, Ideal.div (wt (scoreR c q k) m) (∑ m' : Fin 2048, wt (scoreR c q k) m') * v m

/-- An array of rank 1, 2 or 3 read coordinate by coordinate. -/
def cur1 {a : Nat} (x : (⟨1, ![a]⟩ : Shape).Idx → EReal) (i : Fin a) : EReal := x (ValueIdx.ix1 i)
def cur2 {a b : Nat} (x : (⟨2, ![a, b]⟩ : Shape).Idx → EReal) (i : Fin a) (j : Fin b) : EReal := x (ValueIdx.ix2 i j)
def cur3 {a b c : Nat} (x : (⟨3, ![a, b, c]⟩ : Shape).Idx → EReal) (i : Fin a) (j : Fin b) (k : Fin c) : EReal :=
  x (ValueIdx.ix3 i j k)

section Whole

variable (x : Fin 2048 → Fin 2 → Fin 1024 → EReal) (w : Fin 3072 → Fin 1024 → EReal) (b : Fin 3072 → EReal)
  (wo : Fin 1024 → Fin 1024 → EReal) (bo : Fin 1024 → EReal)

/-- The packed projection at position `l`, batch `n`, column `f`. -/
def qkv (l : Fin 2048) (n : Fin 2) (f : Fin 3072) : EReal := lin (x l n) (w f) (b f)

/-- Column `e` of the concatenated head outputs at position `l`, batch `n`, the kernel's way, -/
def attnK (c : EReal) (l : Fin 2048) (n : Fin 2) (e : Fin 1024) : EReal :=
  headK c (fun d => qkv x w b l n (qCol (headOf e) d)) (fun m d => qkv x w b m n (kCol (headOf e) d))
    (fun m => qkv x w b m n (vCol (headOf e) (inHead e)))
/-- and the reference's. -/
def attnR (c : EReal) (l : Fin 2048) (n : Fin 2) (e : Fin 1024) : EReal :=
  headR c (fun d => qkv x w b l n (qCol (headOf e) d)) (fun m d => qkv x w b m n (kCol (headOf e) d))
    (fun m => qkv x w b m n (vCol (headOf e) (inHead e)))

/-- The result at position `l`, batch `n`, column `f`: the output projection of the concatenated heads. -/
def outK (c : EReal) (l : Fin 2048) (n : Fin 2) (f : Fin 1024) : EReal := lin (attnK x w b c l n) (wo f) (bo f)
def outR (c : EReal) (l : Fin 2048) (n : Fin 2) (f : Fin 1024) : EReal := lin (attnR x w b c l n) (wo f) (bo f)

end Whole

end Cert.Mha

end
-- ==== Proof.TileDots.lean ====
/-
  The kernels' vector operations read at an index, on the extended reals, over the literal shapes of the two bodies:
  each matrix product into a zero tile as a sum over its one contracted axis; a row's maximum and a row's sum; the
  casts that drop or add a middle unit axis, a column kept as `[a, 1]` and its broadcast along the rows.
-/
import proofs.«409386_j62869731279490_3_alg».proof.Proof.Gen.KernelIdeal
import proofs.«409386_j62869731279490_3_alg».proof.Proof.MhaSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Cert.KernelIdeal Cert.KernelIdeal.Gen Cert.Mha ValueIdx

/-! ## Layout: a unit axis in the middle, a kept column -/

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's maximum and a row's sum -/

/-- The word `0xFF800000` is `−∞`. -/
theorem ofBits_neg_inf : Ideal.ofBits .f32 0xFF800000#32 = ⊥ := by simp [Ideal.ofBits, Ideal.ieee]

/-- Row `r`'s maximum over the 2048 columns, from `−∞`. -/
theorem rowMax_apply (s : FVec Ideal S256x2048 .f32) (r : Fin 256) :
    multiReduction .maximumf [1] S256 s 0xFF800000#32 reduces_S256x2048_S256 (.inl rfl) rfl (ix1 r)
      = rowMax (fun m : Fin 2048 => s (ix2 r m)) := by
  refine (Ideal.multiReduction_maximumf_single s 0xFF800000#32 reduces_S256x2048_S256 (.inl rfl) rfl (ix1 r)).trans ?_
  show (Finset.univ : Finset (Fin 2048)).fold max (Ideal.ofBits .f32 0xFF800000#32)
      (fun m => s (reduces_S256x2048_S256.lift (ix1 r) m)) = _
  rw [ofBits_neg_inf]
  unfold rowMax
  refine congrArg (fun g : Fin 2048 → EReal => Finset.fold max ⊥ g Finset.univ)
    (funext fun m => congrArg s (funext fun a => Fin.ext ?_))
  match a with
  | ⟨0, _⟩ => rfl
  | ⟨1, _⟩ => rfl

/-- Row `r`'s sum over the 2048 columns. -/
theorem rowSum_apply (p : FVec Ideal S256x2048 .f32) (r : Fin 256) :
    multiReduction .add [1] S256 p 0x00000000#32 reduces_S256x2048_S256 (.inl rfl) rfl (ix1 r)
      = ∑ m : Fin 2048, p (ix2 r m) := by
  refine (Ideal.multiReduction_add_single p 0x00000000#32 reduces_S256x2048_S256 (.inl rfl) rfl (ix1 r)).trans ?_
  show ∑ m : Fin 2048, p (reduces_S256x2048_S256.lift (ix1 r) m) = _
  refine Finset.sum_congr rfl fun m _ => congrArg p (funext fun a => Fin.ext ?_)
  match a with
  | ⟨0, _⟩ => rfl
  | ⟨1, _⟩ => rfl

/-! ## The projection's product: rows of the tile against rows of the weight -/

theorem lhs_proj_0 (i : S1024x3072.Idx) (q : dot_S1024x1024_S3072x1024_S1024x3072_1_1_0_0_n_n.contr.Idx) :
    (dot_S1024x1024_S3072x1024_S1024x3072_1_1_0_0_n_n.lhsIdx i q 0).val = (i 0).val := by
  unfold DotDims.lhsIdx
  rw [dif_neg (show ¬(0 : Fin S1024x1024.rank) ∈ dot_S1024x1024_S3072x1024_S1024x3072_1_1_0_0_n_n.lhsBatch by decide),
    dif_pos (show (0 : Fin S1024x1024.rank) ∈ dot_S1024x1024_S3072x1024_S1024x3072_1_1_0_0_n_n.lhsNonContracting by decide)]
  rfl
theorem lhs_proj_1 (i : S1024x3072.Idx) (q : dot_S1024x1024_S3072x1024_S1024x3072_1_1_0_0_n_n.contr.Idx) :
    (dot_S1024x1024_S3072x1024_S1024x3072_1_1_0_0_n_n.lhsIdx i q 1).val = (q ⟨0, by decide⟩).val :=
  dot_S1024x1024_S3072x1024_S1024x3072_1_1_0_0_n_n.lhsIdx_val_of_single rfl i q
theorem rhs_proj_0 (i : S1024x3072.Idx) (q : dot_S1024x1024_S3072x1024_S1024x3072_1_1_0_0_n_n.contr.Idx) :
    (dot_S1024x1024_S3072x1024_S1024x3072_1_1_0_0_n_n.rhsIdx i q 0).val = (i 1).val := by
  unfold DotDims.rhsIdx
  rw [dif_neg (show ¬(0 : Fin S3072x1024.rank) ∈ dot_S1024x1024_S3072x1024_S1024x3072_1_1_0_0_n_n.rhsBatch by decide),
    dif_pos (show (0 : Fin S3072x1024.rank) ∈ dot_S1024x1024_S3072x1024_S1024x3072_1_1_0_0_n_n.rhsNonContracting by decide)]
  rfl
theorem rhs_proj_1 (i : S1024x3072.Idx) (q : dot_S1024x1024_S3072x1024_S1024x3072_1_1_0_0_n_n.contr.Idx) :
    (dot_S1024x1024_S3072x1024_S1024x3072_1_1_0_0_n_n.rhsIdx i q 1).val = (q ⟨0, by decide⟩).val :=
  dot_S1024x1024_S3072x1024_S1024x3072_1_1_0_0_n_n.rhsIdx_val_of_single rfl i q

/-- The projection's product into the zero tile, at `(r, f)`: row `r` of the left operand against row `f` of the right. -/
theorem matmul_proj_apply (a : FVec Ideal S1024x1024 .bf16) (b : FVec Ideal S3072x1024 .bf16) (r : Fin 1024) (f : Fin 3072) :
    matmul dot_S1024x1024_S3072x1024_S1024x3072_1_1_0_0_n_n none a b (constant (F := Ideal) S1024x3072 .f32 0x00000000#32) (ix2 r f)
      = ∑ e : Fin 1024, a (ix2 r e) * b (ix2 f e) := by
  refine (Ideal.matmul_constant_zero_apply dot_S1024x1024_S3072x1024_S1024x3072_1_1_0_0_n_n none a b (ix2 r f)).trans ?_
  rw [← Equiv.sum_comp (contrEquiv1 dot_S1024x1024_S3072x1024_S1024x3072_1_1_0_0_n_n 1024 rfl rfl).symm]
  refine Finset.sum_congr rfl fun k _ => ?_
  have hk := contrEquiv1_symm_val dot_S1024x1024_S3072x1024_S1024x3072_1_1_0_0_n_n 1024 rfl rfl k
  have el : dot_S1024x1024_S3072x1024_S1024x3072_1_1_0_0_n_n.lhsIdx (ix2 r f)
      ((contrEquiv1 dot_S1024x1024_S3072x1024_S1024x3072_1_1_0_0_n_n 1024 rfl rfl).symm k) = ix2 r k :=
    funext fun a => Fin.ext (by
      match a with
      | ⟨0, _⟩ => exact lhs_proj_0 _ _
      | ⟨1, _⟩ => exact (lhs_proj_1 _ _).trans hk)
  have er : dot_S1024x1024_S3072x1024_S1024x3072_1_1_0_0_n_n.rhsIdx (ix2 r f)
      ((contrEquiv1 dot_S1024x1024_S3072x1024_S1024x3072_1_1_0_0_n_n 1024 rfl rfl).symm k) = ix2 f k :=
    funext fun a => Fin.ext (by
      match a with
      | ⟨0, _⟩ => exact rhs_proj_0 _ _
      | ⟨1, _⟩ => exact (rhs_proj_1 _ _).trans hk)
  rw [el, er]

/-! ## A head's scores: the query rows against the key rows, over the head's 64 columns -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The score product into the zero tile, at `(r, m)`: query row `r` against key row `m`. -/
theorem matmul_qk_apply (a : FVec Ideal S256x64 .bf16) (b : FVec Ideal S2048x64 .bf16) (r : Fin 256) (m : Fin 2048) :
    matmul dot_S256x64_S2048x64_S256x2048_1_1_0_0_n_n none a b (constant (F := Ideal) S256x2048 .f32 0x00000000#32) (ix2 r m)
      = ∑ e : Fin 64, a (ix2 r e) * b (ix2 m e) := by
  refine (Ideal.matmul_constant_zero_apply dot_S256x64_S2048x64_S256x2048_1_1_0_0_n_n none a b (ix2 r m)).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r m)
      ((contrEquiv1 dot_S256x64_S2048x64_S256x2048_1_1_0_0_n_n 64 rfl rfl).symm k) = ix2 r k :=
    funext fun a => Fin.ext (by
      match a with
      | ⟨0, _⟩ => exact lhs_qk_0 _ _
      | ⟨1, _⟩ => exact (lhs_qk_1 _ _).trans hk)
  have er : dot_S256x64_S2048x64_S256x2048_1_1_0_0_n_n.rhsIdx (ix2 r m)
      ((contrEquiv1 dot_S256x64_S2048x64_S256x2048_1_1_0_0_n_n 64 rfl rfl).symm k) = ix2 m k :=
    funext fun a => Fin.ext (by
      match a with
      | ⟨0, _⟩ => exact rhs_qk_0 _ _
      | ⟨1, _⟩ => exact (rhs_qk_1 _ _).trans hk)
  rw [el, er]

/-! ## A head's weighted values: the weight rows against the value columns, over the 2048 positions -/

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The weighted-value product into the zero tile, at `(r, d)`: weight row `r` against value column `d`. -/
theorem matmul_pv_apply (a : FVec Ideal S256x2048 .bf16) (b : FVec Ideal S2048x64 .bf16) (r : Fin 256) (d : Fin 64) :
    matmul dot_S256x2048_S2048x64_S256x64_1_0_0_1_n_n none a b (constant (F := Ideal) S256x64 .f32 0x00000000#32) (ix2 r d)
      = ∑ m : Fin 2048, a (ix2 r m) * b (ix2 m d) := by
  refine (Ideal.matmul_constant_zero_apply dot_S256x2048_S2048x64_S256x64_1_0_0_1_n_n none a b (ix2 r d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d)
      ((contrEquiv1 dot_S256x2048_S2048x64_S256x64_1_0_0_1_n_n 2048 rfl rfl).symm k) = ix2 r k :=
    funext fun a => Fin.ext (by
      match a with
      | ⟨0, _⟩ => exact lhs_pv_0 _ _
      | ⟨1, _⟩ => exact (lhs_pv_1 _ _).trans hk)
  have er : dot_S256x2048_S2048x64_S256x64_1_0_0_1_n_n.rhsIdx (ix2 r d)
      ((contrEquiv1 dot_S256x2048_S2048x64_S256x64_1_0_0_1_n_n 2048 rfl rfl).symm k) = ix2 k d :=
    funext fun a => Fin.ext (by
      match a with
      | ⟨0, _⟩ => exact (rhs_pv_0 _ _).trans hk
      | ⟨1, _⟩ => exact rhs_pv_1 _ _)
  rw [el, er]

/-! ## The output projection: rows of the concatenated heads against rows of the output weight -/

theorem lhs_out_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem lhs_out_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_out_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem rhs_out_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The output projection's product into the zero tile, at `(r, f)`: row `r` of the heads against row `f` of the weight. -/
theorem matmul_out_apply (a : FVec Ideal S256x1024 .bf16) (b : FVec Ideal S1024x1024 .bf16) (r : Fin 256) (f : Fin 1024) :
    matmul dot_S256x1024_S1024x1024_S256x1024_1_1_0_0_n_n none a b (constant (F := Ideal) S256x1024 .f32 0x00000000#32) (ix2 r f)
      = ∑ e : Fin 1024, a (ix2 r e) * b (ix2 f e) := by
  refine (Ideal.matmul_constant_zero_apply dot_S256x1024_S1024x1024_S256x1024_1_1_0_0_n_n none a b (ix2 r f)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r f)
      ((contrEquiv1 dot_S256x1024_S1024x1024_S256x1024_1_1_0_0_n_n 1024 rfl rfl).symm k) = ix2 r k :=
    funext fun a => Fin.ext (by
      match a with
      | ⟨0, _⟩ => exact lhs_out_0 _ _
      | ⟨1, _⟩ => exact (lhs_out_1 _ _).trans hk)
  have er : dot_S256x1024_S1024x1024_S256x1024_1_1_0_0_n_n.rhsIdx (ix2 r f)
      ((contrEquiv1 dot_S256x1024_S1024x1024_S256x1024_1_1_0_0_n_n 1024 rfl rfl).symm k) = ix2 f k :=
    funext fun a => Fin.ext (by
      match a with
      | ⟨0, _⟩ => exact rhs_out_0 _ _
      | ⟨1, _⟩ => exact (rhs_out_1 _ _).trans hk)
  rw [el, er]

end Cert.KernelIdeal.Hand

end
-- ==== Proof.TileHead.lean ====
/-
  One attention head of the kernel body, as a vector function of the entry's query tile, keys and values, and the
  whole stored tile as a function of those and the output weight and bias: written once, for any float instance.
  Then the head read at an index on the extended reals: at row `r` and the head's own column `d` it is
  `Cert.Mha.headK` of the row's 64-column window of the queries, the same window of every key row, and column `d`
  of that window of every value row.
-/
import proofs.«409386_j62869731279490_3_alg».proof.Proof.TileDots

set_option maxRecDepth 16384

noncomputable section

namespace Cert.KernelIdeal.Hand

open Idealize.ShloMosaic Idealize.ShloMosaic.TcCoe Cert.KernelIdeal Cert.KernelIdeal.Gen Cert.Mha ValueIdx

/-! ## The head and the tile as vector functions -/

section Vectors
variable {F : FTy → Type} [FloatOps F]

/-- A head's scores: the 64 columns at `off` of every query row against the same columns of every key row, each
    dot product then scaled by `0.125`. -/
def scoreVec (off : Fin 2 → Nat) (hq : S256x1024.Slices off S256x64) (hk : S2048x1024.Slices off S2048x64)
    (q : FVec F S256x1024 .bf16) (k : FVec F S2048x1024 .bf16) : FVec F S256x2048 .f32 :=
  mulf (matmul dot_S256x64_S2048x64_S256x2048_1_1_0_0_n_n none (extractStridedSlice S256x64 off q hq)
      (extractStridedSlice S2048x64 off k hk) (constant S256x2048 .f32 0x00000000#32))
    (broadcast S256x2048 (Scalar.ofBits .f32 0x3E000000#32 : F .f32))

/-- The weights of a tile of scores: each row less its maximum (taken from `−∞`), exponentiated. -/
def wtVec (s : FVec F S256x2048 .f32) : FVec F S256x2048 .f32 :=
  exp (subf s (broadcastTo S256x2048
    (shapeCast S256x1 (multiReduction .maximumf [1] S256 s 0xFF800000#32 reduces_S256x2048_S256 (.inl rfl) rfl) shapeCasts_S256_S256x1)
    broadcasts_S256x1_S256x2048))

/-- A head's output from its weights `p` and its 64 value columns `vh`: the weights against the values, each row
    divided by the row's sum of weights. -/
def headOut (p : FVec F S256x2048 .f32) (vh : FVec F S2048x64 .bf16) : FVec F S256x64 .bf16 :=
  truncf .bf16 (divf
    (matmul dot_S256x2048_S2048x64_S256x64_1_0_0_1_n_n none (truncf .bf16 p bitsLt_bf16_f32) vh (constant S256x64 .f32 0x00000000#32))
    (broadcastTo S256x64
      (shapeCast S256x1 (multiReduction .add [1] S256 p 0x00000000#32 reduces_S256x2048_S256 (.inl rfl) rfl) shapeCasts_S256_S256x1)
      broadcasts_S256x1_S256x64)) bitsLt_bf16_f32

/-- One head, from the entry's query tile, keys and values (each 1024 wide): the head owns the 64 columns at `off`. -/
def headVec (off : Fin 2 → Nat) (hq : S256x1024.Slices off S256x64) (hk : S2048x1024.Slices off S2048x64)
    (q : FVec F S256x1024 .bf16) (k v : FVec F S2048x1024 .bf16) : FVec F S256x64 .bf16 :=
  headOut (wtVec (scoreVec off hq hk q k)) (extractStridedSlice S2048x64 off v hk)

/-- One batch entry's output tile: the sixteen heads side by side, against the output weight, plus the bias row;
    stored with a unit middle axis. -/
def tileVec (w : FVec F S1024x1024 .bf16) (b : FVec F S1x1024 .f32) (q : FVec F S256x1024 .bf16)
    (k v : FVec F S2048x1024 .bf16) : FVec F S256x1x1024 .f32 :=
  shapeCast S256x1x1024 (addf
    (matmul dot_S256x1024_S1024x1024_S256x1024_1_1_0_0_n_n none
      (concatenate S256x1024 1 [
        ⟨S256x64, headVec ![0, 0] slices_S256x1024_o0_0_S256x64 slices_S2048x1024_o0_0_S2048x64 q k v⟩,
        ⟨S256x64, headVec ![0, 64] slices_S256x1024_o0_64_S256x64 slices_S2048x1024_o0_64_S2048x64 q k v⟩,
        ⟨S256x64, headVec ![0, 128] slices_S256x1024_o0_128_S256x64 slices_S2048x1024_o0_128_S2048x64 q k v⟩,
        ⟨S256x64, headVec ![0, 192] slices_S256x1024_o0_192_S256x64 slices_S2048x1024_o0_192_S2048x64 q k v⟩,
        ⟨S256x64, headVec ![0, 256] slices_S256x1024_o0_256_S256x64 slices_S2048x1024_o0_256_S2048x64 q k v⟩,
        ⟨S256x64, headVec ![0, 320] slices_S256x1024_o0_320_S256x64 slices_S2048x1024_o0_320_S2048x64 q k v⟩,
        ⟨S256x64, headVec ![0, 384] slices_S256x1024_o0_384_S256x64 slices_S2048x1024_o0_384_S2048x64 q k v⟩,
        ⟨S256x64, headVec ![0, 448] slices_S256x1024_o0_448_S256x64 slices_S2048x1024_o0_448_S2048x64 q k v⟩,
        ⟨S256x64, headVec ![0, 512] slices_S256x1024_o0_512_S256x64 slices_S2048x1024_o0_512_S2048x64 q k v⟩,
        ⟨S256x64, headVec ![0, 576] slices_S256x1024_o0_576_S256x64 slices_S2048x1024_o0_576_S2048x64 q k v⟩,
        ⟨S256x64, headVec ![0, 640] slices_S256x1024_o0_640_S256x64 slices_S2048x1024_o0_640_S2048x64 q k v⟩,
        ⟨S256x64, headVec ![0, 704] slices_S256x1024_o0_704_S256x64 slices_S2048x1024_o0_704_S2048x64 q k v⟩,
        ⟨S256x64, headVec ![0, 768] slices_S256x1024_o0_768_S256x64 slices_S2048x1024_o0_768_S2048x64 q k v⟩,
        ⟨S256x64, headVec ![0, 832] slices_S256x1024_o0_832_S256x64 slices_S2048x1024_o0_832_S2048x64 q k v⟩,
        ⟨S256x64, headVec ![0, 896] slices_S256x1024_o0_896_S256x64 slices_S2048x1024_o0_896_S2048x64 q k v⟩,
        ⟨S256x64, headVec ![0, 960] slices_S256x1024_o0_960_S256x64 slices_S2048x1024_o0_960_S2048x64 q k v⟩]
        concatenates_S256x64_S256x64_S256x64_S256x64_S256x64_S256x64_S256x64_S256x64_S256x64_S256x64_S256x64_S256x64_S256x64_S256x64_S256x64_S256x64_S256x1024_d1)
      w (constant S256x1024 .f32 0x00000000#32))
    (broadcastTo S256x1024 b broadcasts_S1x1024_S256x1024)) shapeCasts_S256x1024_S256x1x1024

end Vectors

/-! ## One head at an index, on the extended reals -/

/-- A column of a 64-wide window at `o` inside a width `n`. -/
theorem col_lt {o n : ℕ} (h : o + 64 ≤ n) (d : Fin 64) : o + d.val < n := by have := d.isLt; omega

/-- The head's score of query row `r` against key row `m`: the dot product over the head's columns `o … o+63`, scaled. -/
theorem scoreVec_apply (o : ℕ) (ho : o + 64 ≤ 1024) (hq : S256x1024.Slices ![0, o] S256x64) (hk : S2048x1024.Slices ![0, o] S2048x64)
    (q : FVec Ideal S256x1024 .bf16) (k : FVec Ideal S2048x1024 .bf16) (r : Fin 256) (m : Fin 2048) :
    scoreVec (F := Ideal) ![0, o] hq hk q k (ix2 r m)
      = scoreK (Ideal.ofBits .f32 0x3E000000#32) (fun d : Fin 64 => q (ix2 r ⟨o + d.val, col_lt ho d⟩))
          (fun (m : Fin 2048) (d : Fin 64) => k (ix2 m ⟨o + d.val, col_lt ho d⟩)) m := by
  unfold scoreVec scoreK
  show matmul dot_S256x64_S2048x64_S256x2048_1_1_0_0_n_n none _ _ (constant (F := Ideal) S256x2048 .f32 0x00000000#32) (ix2 r m)
      * Ideal.ofBits .f32 0x3E000000#32 = _
  rw [matmul_qk_apply]
  simp only [slice2_axis1_eq]

/-- A weight: the exponential of a score less its row's maximum. -/
theorem wtVec_apply (s : FVec Ideal S256x2048 .f32) (r : Fin 256) (m : Fin 2048) :
    wtVec (F := Ideal) s (ix2 r m) = wt (fun m' : Fin 2048 => s (ix2 r m')) m := by
  unfold wtVec wt
  show Ideal.exp (s (ix2 r m) - broadcastTo S256x2048 _ broadcasts_S256x1_S256x2048 (ix2 r m)) = _
  rw [broadcastTo_a1_ab_apply, shapeCast_a_a1_apply, rowMax_apply]

/-- A head's output at `(r, d)` from its weights and values: the weighted sum of value column `d` over the row's sum
    of weights. -/
theorem headOut_apply (p : FVec Ideal S256x2048 .f32) (vh : FVec Ideal S2048x64 .bf16) (r : Fin 256) (d : Fin 64) :
    headOut (F := Ideal) p vh (ix2 r d)
      = Ideal.div (∑ m : Fin 2048, p (ix2 r m) * vh (ix2 m d)) (∑ m : Fin 2048, p (ix2 r m)) := by
  unfold headOut
  show Ideal.div (matmul dot_S256x2048_S2048x64_S256x64_1_0_0_1_n_n none _ _ (constant (F := Ideal) S256x64 .f32 0x00000000#32) (ix2 r d))
      (broadcastTo S256x64 _ broadcasts_S256x1_S256x64 (ix2 r d)) = _
  rw [matmul_pv_apply, broadcastTo_a1_ab_apply, shapeCast_a_a1_apply, rowSum_apply]
  rfl

/-- The head owning columns `o … o+63`, at row `r` and its column `d`: the kernel's head formula on the rows' windows. -/
theorem headVec_apply (o : ℕ) (ho : o + 64 ≤ 1024) (hq : S256x1024.Slices ![0, o] S256x64) (hk : S2048x1024.Slices ![0, o] S2048x64)
    (q : FVec Ideal S256x1024 .bf16) (k v : FVec Ideal S2048x1024 .bf16) (r : Fin 256) (d : Fin 64) :
    headVec (F := Ideal) ![0, o] hq hk q k v (ix2 r d)
      = headK (Ideal.ofBits .f32 0x3E000000#32) (fun d' : Fin 64 => q (ix2 r ⟨o + d'.val, col_lt ho d'⟩))
          (fun (m : Fin 2048) (d' : Fin 64) => k (ix2 m ⟨o + d'.val, col_lt ho d'⟩))
          (fun m : Fin 2048 => v (ix2 m ⟨o + d.val, col_lt ho d⟩)) := by
  unfold headVec headK
  rw [headOut_apply]
  simp only [wtVec_apply, scoreVec_apply o ho, slice2_axis1_eq]

end Cert.KernelIdeal.Hand

end
-- ==== Proof.TileVec.lean ====
/-
  The attention body's stored value for a batch entry is the tile function of the entry's slabs: the body's values,
  threaded statement window by statement window, are the same operations in the same order as `tileVec` of the
  output weight, the bias row and the entry's query tile, keys and values with their unit middle axis dropped.
  Both entries: the two threadings cut the same chain at different statements.
-/
import proofs.«409386_j62869731279490_3_alg».proof.Proof.Outs
import proofs.«409386_j62869731279490_3_alg».proof.Proof.TileHead

set_option maxRecDepth 16384

noncomputable section

namespace Cert.KernelIdeal.Hand

open Idealize.ShloMosaic Idealize.ShloMosaic.TcCoe Cert.KernelIdeal Cert.KernelIdeal.Gen

variable {F : FTy → Type} [FloatOps F]

set_option maxRecDepth 65536 in
/-- Batch entry `0`'s stored value is the tile function of its slabs. -/
theorem store1_0_eq (w0 : Vec F S1024x1024 .bf16) (b0 : Vec F S1x1024 .f32) (q0 : Vec F S256x1x1024 .bf16)
    (k0 v0 : Vec F S2048x1x1024 .bf16) :
    store1_0 w0 b0 q0 k0 v0 = tileVec (k1_pay4 w0) (k1_pay5 b0) (k1_pay6 q0) (k1_pay7 k0) (k1_pay8 v0) := rfl

set_option maxRecDepth 65536 in
/-- Batch entry `1`'s stored value is the same function of its own slabs. -/
theorem store1_1_eq (w0 : Vec F S1024x1024 .bf16) (b0 : Vec F S1x1024 .f32) (q1 : Vec F S256x1x1024 .bf16)
    (k1 v1 : Vec F S2048x1x1024 .bf16) :
    store1_1 w0 b0 q1 k1 v1 = tileVec (k1_pay4 w0) (k1_pay5 b0) (k1_pay37 q1) (k1_pay38 k1) (k1_pay39 v1) := rfl

end Cert.KernelIdeal.Hand

end
-- ==== Proof.TileValue.lean ====
/-
  The attention body's stored value for one batch entry, read at an index: row `r` of the tile, column `f` of the
  output, is the output projection of the sixteen concatenated head outputs, each head computed the kernel's way
  (`Cert.Mha.headK`: the dot product scaled by `0.125`, the weighted sum of values divided by the weights' sum).
  And the projection body's stored value at an index: a row of the input tile against a row of the weight, plus bias.
-/
import proofs.«409386_j62869731279490_3_alg».proof.Proof.Outs
import proofs.«409386_j62869731279490_3_alg».proof.Proof.MhaSpec
import proofs.«409386_j62869731279490_3_alg».proof.Proof.TileVec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Mha

/-- Column `64·h + d` of a 1024-wide third. -/
def hCol (h : Fin 16) (d : Fin 64) : Fin 1024 := ⟨64 * h.val + d.val, by omega⟩

/-- The kernel's scale, `0.125`. -/
abbrev cK : EReal := Idealize.ShloMosaic.Ideal.ofBits .f32 0x3E000000#32

/-- One batch entry's output tile at row `r`, column `f`, from the entry's query tile `q`, keys `k`, values `v`
    (each 1024 wide), the output weight and bias. -/
def tileOut (q : Fin 256 → Fin 1024 → EReal) (k v : Fin 2048 → Fin 1024 → EReal) (wo : Fin 1024 → Fin 1024 → EReal)
    (bo : Fin 1024 → EReal) (r : Fin 256) (f : Fin 1024) : EReal :=
  lin (fun e => headK cK (fun d => q r (hCol (headOf e) d)) (fun m d => k m (hCol (headOf e) d))
    (fun m => v m (hCol (headOf e) (inHead e)))) (wo f) (bo f)

end Cert.Mha

namespace Cert.KernelIdeal.Hand

open Idealize.ShloMosaic Idealize.ShloMosaic.TcCoe Cert.KernelIdeal Cert.KernelIdeal.Gen Cert.Mha ValueIdx

/-! ## The sixteen heads side by side, and the tile at an index -/

/-- Sixteen 64-wide pieces side by side along the columns: column `e` is piece `e / 64` at its column `e % 64`. -/
theorem concat16_apply {α : Type} (f : Fin 16 → (S256x64.Idx → α))
    (h : Shape.Concatenates
      (([(⟨S256x64, f 0⟩ : (s : Shape) × (s.Idx → α)), ⟨S256x64, f 1⟩, ⟨S256x64, f 2⟩, ⟨S256x64, f 3⟩, ⟨S256x64, f 4⟩,
        ⟨S256x64, f 5⟩, ⟨S256x64, f 6⟩, ⟨S256x64, f 7⟩, ⟨S256x64, f 8⟩, ⟨S256x64, f 9⟩, ⟨S256x64, f 10⟩, ⟨S256x64, f 11⟩,
        ⟨S256x64, f 12⟩, ⟨S256x64, f 13⟩, ⟨S256x64, f 14⟩, ⟨S256x64, f 15⟩]).map (·.1)) S256x1024 1)
    (r : Fin 256) (e : Fin 1024) :
    concatenate S256x1024 1
        [(⟨S256x64, f 0⟩ : (s : Shape) × (s.Idx → α)), ⟨S256x64, f 1⟩, ⟨S256x64, f 2⟩, ⟨S256x64, f 3⟩, ⟨S256x64, f 4⟩,
          ⟨S256x64, f 5⟩, ⟨S256x64, f 6⟩, ⟨S256x64, f 7⟩, ⟨S256x64, f 8⟩, ⟨S256x64, f 9⟩, ⟨S256x64, f 10⟩, ⟨S256x64, f 11⟩,
          ⟨S256x64, f 12⟩, ⟨S256x64, f 13⟩, ⟨S256x64, f 14⟩, ⟨S256x64, f 15⟩] h (ix2 r e)
      = f (headOf e) (ix2 r (inHead e)) :=
  concatenate_ofFn_apply (t := S256x1024) (s₁ := S256x64) (1 : Fin 2) f h rfl 64 rfl (ix2 r e) (headOf e) rfl (ix2 r (inHead e)) rfl
    (fun b hb => match b, hb with
      | ⟨0, _⟩, _ => rfl
      | ⟨1, _⟩, hb => absurd rfl hb)

/-- Head `n`'s 64 columns lie inside the 1024. -/
theorem head_le (n : Fin 16) : 64 * n.val + 64 ≤ 1024 := by have := n.isLt; omega
/-- They are a window of the query tile, -/
theorem slices_q (n : Fin 16) : S256x1024.Slices ![0, 64 * n.val] S256x64 := ⟨rfl, fun a => by
  have := n.isLt
  match a with
  | ⟨0, _⟩ => show 0 + 256 ≤ 256; omega
  | ⟨1, _⟩ => show 64 * n.val + 64 ≤ 1024; omega⟩
/-- and of the keys and the values. -/
theorem slices_kv (n : Fin 16) : S2048x1024.Slices ![0, 64 * n.val] S2048x64 := ⟨rfl, fun a => by
  have := n.isLt
  match a with
  | ⟨0, _⟩ => show 0 + 2048 ≤ 2048; omega
  | ⟨1, _⟩ => show 64 * n.val + 64 ≤ 1024; omega⟩

/-- The tile function at `(r, 0, f)`: the output projection of the sixteen heads, column `e` of them being head
    `e / 64` at its column `e % 64`, each the kernel's head formula. -/
theorem tileVec_apply (w : FVec Ideal S1024x1024 .bf16) (b : FVec Ideal S1x1024 .f32) (q : FVec Ideal S256x1024 .bf16)
    (k v : FVec Ideal S2048x1024 .bf16) (r : Fin 256) (u : Fin 1) (f : Fin 1024) :
    tileVec (F := Ideal) w b q k v (ix3 r u f)
      = tileOut (fun r e => q (ix2 r e)) (fun m e => k (ix2 m e)) (fun m e => v (ix2 m e)) (fun f e => w (ix2 f e))
          (fun f => b (ix2 (0 : Fin 1) f)) r f := by
  unfold tileVec tileOut lin
  rw [shapeCast_ab_a1b_apply]
  show matmul dot_S256x1024_S1024x1024_S256x1024_1_1_0_0_n_n none _ _ (constant (F := Ideal) S256x1024 .f32 0x00000000#32) (ix2 r f)
      + broadcastTo S256x1024 b broadcasts_S1x1024_S256x1024 (ix2 r f) = _
  rw [matmul_out_apply, broadcastTo_1b_ab_apply]
  refine congrArg (· + b (ix2 (0 : Fin 1) f)) (Finset.sum_congr rfl fun e _ => congrArg (· * w (ix2 f e)) ?_)
  refine (concat16_apply (fun n : Fin 16 => headVec (F := Ideal) ![0, 64 * n.val] (slices_q n) (slices_kv n) q k v) _ r e).trans ?_
  exact headVec_apply (64 * (headOf e).val) (head_le (headOf e)) _ _ q k v r (inHead e)

/-! ## The three stored values -/

/-- The projection body's stored value at `(r, f)`. -/
theorem k0_pay1_apply (x0 : Vec Ideal S1024x1024 .f32) (x1 : Vec Ideal S3072x1024 .bf16) (x2 : Vec Ideal S1x3072 .f32)
    (r : Fin 1024) (f : Fin 3072) :
    (k0_pay1 (F := Ideal) x0 x1 x2 : S1024x3072.Idx → EReal) (ix2 r f)
      = lin (fun e : Fin 1024 => (x0 : S1024x1024.Idx → EReal) (ix2 r e)) (fun e : Fin 1024 => (x1 : S3072x1024.Idx → EReal) (ix2 f e))
          ((x2 : S1x3072.Idx → EReal) (ix2 (0 : Fin 1) f)) := by
  unfold k0_pay1
  simp only [shapeCast_self]
  show matmul dot_S1024x1024_S3072x1024_S1024x3072_1_1_0_0_n_n none _ _ (constant (F := Ideal) S1024x3072 .f32 0x00000000#32) (ix2 r f)
      + broadcastTo S1024x3072 x2 broadcasts_S1x3072_S1024x3072 (ix2 r f) = _
  rw [matmul_proj_apply, broadcastTo_1b_ab_apply]
  rfl

/-- Batch entry `0`'s stored value at `(r, 0, f)`. -/
theorem store1_0_apply (w0 : Vec Ideal S1024x1024 .bf16) (b0 : Vec Ideal S1x1024 .f32) (q0 : Vec Ideal S256x1x1024 .bf16)
    (k0 v0 : Vec Ideal S2048x1x1024 .bf16) (r : Fin 256) (f : Fin 1024) :
    (store1_0 (F := Ideal) w0 b0 q0 k0 v0 : S256x1x1024.Idx → EReal) (ix3 r (0 : Fin 1) f)
      = tileOut (fun r e => (q0 : S256x1x1024.Idx → EReal) (ix3 r (0 : Fin 1) e))
          (fun m e => (k0 : S2048x1x1024.Idx → EReal) (ix3 m (0 : Fin 1) e))
          (fun m e => (v0 : S2048x1x1024.Idx → EReal) (ix3 m (0 : Fin 1) e))
          (fun f e => (w0 : S1024x1024.Idx → EReal) (ix2 f e)) (fun f => (b0 : S1x1024.Idx → EReal) (ix2 (0 : Fin 1) f)) r f := by
  rw [store1_0_eq, tileVec_apply]
  unfold k1_pay4 k1_pay5 k1_pay6 k1_pay7 k1_pay8
  simp only [shapeCast_self, shapeCast_a1b_ab_apply]

/-- Batch entry `1`'s stored value at `(r, 0, f)`: the same function of its own slabs. -/
theorem store1_1_apply (w0 : Vec Ideal S1024x1024 .bf16) (b0 : Vec Ideal S1x1024 .f32) (q1 : Vec Ideal S256x1x1024 .bf16)
    (k1 v1 : Vec Ideal S2048x1x1024 .bf16) (r : Fin 256) (f : Fin 1024) :
    (store1_1 (F := Ideal) w0 b0 q1 k1 v1 : S256x1x1024.Idx → EReal) (ix3 r (0 : Fin 1) f)
      = tileOut (fun r e => (q1 : S256x1x1024.Idx → EReal) (ix3 r (0 : Fin 1) e))
          (fun m e => (k1 : S2048x1x1024.Idx → EReal) (ix3 m (0 : Fin 1) e))
          (fun m e => (v1 : S2048x1x1024.Idx → EReal) (ix3 m (0 : Fin 1) e))
          (fun f e => (w0 : S1024x1024.Idx → EReal) (ix2 f e)) (fun f => (b0 : S1x1024.Idx → EReal) (ix2 (0 : Fin 1) f)) r f := by
  rw [store1_1_eq, tileVec_apply]
  unfold k1_pay4 k1_pay5 k1_pay37 k1_pay38 k1_pay39
  simp only [shapeCast_self, shapeCast_a1b_ab_apply]

end Cert.KernelIdeal.Hand

end
-- ==== Proof.Value0.lean ====
/-
  The projection pipeline's final result array, read at an index: four grid points, point `t` writing rows
  `1024·t … 1024·t + 1023`; row `r`, column `f` is row `r` of the input against row `f` of the weight, plus the bias.
-/
import proofs.«409386_j62869731279490_3_alg».proof.Proof.Dats
import proofs.«409386_j62869731279490_3_alg».proof.Proof.TileValue
import proofs.«409386_j62869731279490_3_alg».proof.Proof.MhaSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Cert.KernelIdeal Cert.KernelIdeal.Gen Cert.Mha ValueIdx
open Idealize.ShloMosaic.Pipeline (Dat)

variable (V : (c : Dev nD) → (b : Ref sig .tc) → Buf (Elt Ideal) ((c : Thread nD τ).loc b))

/-- The zero offsets of a rank-2 rectangle, however spelt. -/
theorem qkvArr_zero_offsets : (![0, 0] : Fin 2 → Nat) = fun _ => 0 :=
  funext fun a => match a with | ⟨0, _⟩ => rfl | ⟨1, _⟩ => rfl

/-- The result array as one function of its index: row `i 0` of the input against row `i 1` of the weight, plus
    entry `i 1` of the bias row. -/
def qkvArr (c : Dev nD) : S4096x3072.Idx → EReal := fun i =>
  lin (fun e : Fin 1024 => (V c main_v0 : S4096x1024.Idx → EReal) (ix2 (i 0 : Fin 4096) e))
    (fun e : Fin 1024 => (V c main_v1 : S3072x1024.Idx → EReal) (ix2 (i 1 : Fin 3072) e))
    ((V c main_v3 : S1x3072.Idx → EReal) (ix2 (0 : Fin 1) (i 1 : Fin 3072)))

/-- The windows' index maps, decided over the grid: the input's and the result's row block is the point, every other
    block index is zero. -/
theorem qkvArr_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value at `(a, b)`, once each block it reads is known as rows of an array. -/
theorem qkvArr_stored_at (x0 : Vec Ideal S1024x1024 .f32) (x1 : Vec Ideal S3072x1024 .bf16) (x2 : Vec Ideal S1x3072 .f32)
    (A0 : S4096x1024.Idx → EReal) (A1 : S3072x1024.Idx → EReal) (A3 : S1x3072.Idx → EReal)
    (a : Fin 1024) (b : Fin 3072) (r : Fin 4096) (f : Fin 3072)
    (h0 : ∀ e : Fin 1024, (x0 : S1024x1024.Idx → EReal) (ix2 a e) = A0 (ix2 r e))
    (h1 : ∀ e : Fin 1024, (x1 : S3072x1024.Idx → EReal) (ix2 b e) = A1 (ix2 f e))
    (h2 : (x2 : S1x3072.Idx → EReal) (ix2 (0 : Fin 1) b) = A3 (ix2 (0 : Fin 1) f)) :
    (k0_pay1 (F := Ideal) x0 x1 x2 : S1024x3072.Idx → EReal) (ix2 a b)
      = lin (fun e : Fin 1024 => A0 (ix2 r e)) (fun e : Fin 1024 => A1 (ix2 f e)) (A3 (ix2 (0 : Fin 1) f)) := by
  rw [k0_pay1_apply, h2]
  congr 1
  · funext e; exact h0 e
  · funext e; exact h1 e

/-- The input's block at point `t` is rows `1024·t …` of the input array. -/
theorem qkvArr_input_block (c : Dev nD) (t : Fin cfg0.N) (x : S1024x1024.Idx) (k : S4096x1024.Idx)
    (hk0 : (k 0).val = 1024 * t.val + (x 0).val) (hk1 : (k 1).val = (x 1).val) :
    (iblk0 V c 0 t : S1024x1024.Idx → EReal) x = (V c main_v0 : S4096x1024.Idx → EReal) k := by
  obtain ⟨e0, e1, -⟩ := qkvArr_index_maps t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The weight's block at every point is the whole weight. -/
theorem qkvArr_weight_block (c : Dev nD) (t : Fin cfg0.N) (x : S3072x1024.Idx) :
    (iblk0 V c 1 t : S3072x1024.Idx → EReal) x = (V c main_v1 : S3072x1024.Idx → EReal) x := by
  obtain ⟨-, -, e0, e1, -⟩ := qkvArr_index_maps t
  unfold iblk0
  rw [View.read_apply]
  show V c main_v1 _ = V c main_v1 _
  congr 1
  funext a
  apply Fin.ext
  match a with
  | ⟨0, _⟩ => show win0_1.index t (0 : Fin 2) * 3072 + 1 * (x 0).val = (x 0).val; rw [e0]; omega
  | ⟨1, _⟩ => show win0_1.index t (1 : Fin 2) * 1024 + 1 * (x 1).val = (x 1).val; rw [e1]; omega

/-- The bias row's block at every point is the whole row. -/
theorem qkvArr_bias_block (c : Dev nD) (t : Fin cfg0.N) (x : S1x3072.Idx) :
    (iblk0 V c 2 t : S1x3072.Idx → EReal) x = (V c main_v3 : S1x3072.Idx → EReal) x := by
  obtain ⟨-, -, -, -, e0, e1, -⟩ := qkvArr_index_maps t
  unfold iblk0
  rw [View.read_apply]
  show V c main_v3 _ = V c main_v3 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-- The body's stored value at `(a, b)` of point `t`'s tile is the result function at the index the tile's `(a, b)`
    lands on: row `1024·t + a`, column `b`. -/
theorem qkvArr_stored_at_block (x0 : Vec Ideal S1024x1024 .f32) (x1 : Vec Ideal S3072x1024 .bf16) (x2 : Vec Ideal S1x3072 .f32)
    (A0 : S4096x1024.Idx → EReal) (A1 : S3072x1024.Idx → EReal) (A3 : S1x3072.Idx → EReal)
    (t : Nat) (a : Fin 1024) (b : Fin 3072) (i : S4096x3072.Idx)
    (h0 : ∀ (x : S1024x1024.Idx) (k : S4096x1024.Idx), (k 0).val = 1024 * t + (x 0).val → (k 1).val = (x 1).val →
      (x0 : S1024x1024.Idx → EReal) x = A0 k)
    (h1 : ∀ x : S3072x1024.Idx, (x1 : S3072x1024.Idx → EReal) x = A1 x)
    (h2 : ∀ x : S1x3072.Idx, (x2 : S1x3072.Idx → EReal) x = A3 x)
    (hi0 : (i 0).val = 1024 * t + a.val) (hi1 : (i 1).val = b.val) :
    (k0_pay1 (F := Ideal) x0 x1 x2 : S1024x3072.Idx → EReal) (ix2 a b)
      = lin (fun e : Fin 1024 => A0 (ix2 (i 0 : Fin 4096) e)) (fun e : Fin 1024 => A1 (ix2 (i 1 : Fin 3072) e))
          (A3 (ix2 (0 : Fin 1) (i 1 : Fin 3072))) := by
  have hb : (i 1 : Fin 3072) = b := Fin.ext hi1
  rw [hb]
  exact qkvArr_stored_at x0 x1 x2 A0 A1 A3 a b (i 0) b (fun e => h0 _ _ hi0 rfl) (fun e => h1 _) (h2 _)

/-- What point `t` writes back is block `t` of the result function. -/
theorem qkvArr_written_back (c : Dev nD) (t : Fin cfg0.N) :
    (dat0 (F := Ideal) V c).flushed 3 t = ((cfg0.win 3).blk t).view.read (Elt Ideal) (qkvArr V c) := by
  show (cfg0.win 3).cut (cfg0.grid.coords t) ((dat0 (F := Ideal) V c).after 3 t) = _
  rw [after0_3]
  unfold out0_3
  rw [View.canon_unit_zero qkvArr_zero_offsets]
  simp only [View.ld_unit_zero (S := S1024x1024) qkvArr_zero_offsets, View.ld_unit_zero (S := S3072x1024) qkvArr_zero_offsets,
    View.ld_unit_zero (S := S1x3072) qkvArr_zero_offsets]
  obtain ⟨-, -, -, -, -, -, e0, e1⟩ := qkvArr_index_maps t
  funext j
  have hj : (j : S1024x3072.Idx) = ix2 (j 0 : Fin 1024) (j 1 : Fin 3072) := eq_ix2 (n0 := 1024) (n1 := 3072) j
  show (k0_pay1 (F := Ideal) (iblk0 V c 0 t) (iblk0 V c 1 t) (iblk0 V c 2 t) : S1024x3072.Idx → EReal) j
    = qkvArr V c (((cfg0.win 3).blk t).view.emb j)
  refine (congrArg (k0_pay1 (F := Ideal) (iblk0 V c 0 t) (iblk0 V c 1 t) (iblk0 V c 2 t) : S1024x3072.Idx → EReal) hj).trans ?_
  exact qkvArr_stored_at_block (iblk0 V c 0 t) (iblk0 V c 1 t) (iblk0 V c 2 t) (V c main_v0) (V c main_v1) (V c main_v3) t.val
    (j 0) (j 1) (((cfg0.win 3).blk t).view.emb j) (fun x k => qkvArr_input_block V c t x k) (qkvArr_weight_block V c t)
    (qkvArr_bias_block V c t)
    (by show win0_3.index t (0 : Fin 2) * 1024 + 1 * (j 0).val = 1024 * t.val + (j 0).val; rw [e0]; omega)
    (by show win0_3.index t (1 : Fin 2) * 3072 + 1 * (j 1).val = (j 1).val; rw [e1]; omega)

/-- An index of the result array is in point `t`'s block iff each coordinate is in the block's range on its axis. -/
theorem qkvArr_mem_block (t : Fin cfg0.N) (i : S4096x3072.Idx) :
    i ∈ ((cfg0.win 3).blk t).view.set ↔ ∀ a : Fin 2, win0_3.index t a * S1024x3072.size a ≤ (i a).val
      ∧ (i a).val < win0_3.index t a * S1024x3072.size a + S1024x3072.size a := by
  show i ∈ ((View.whole main_v4).slice (win0_3.rect t)).set ↔ _
  rw [View.set_slice_whole, Rect.mem_set_unit]
  exact Iff.rfl

/-- The grid has four points. -/
theorem qkvArr_grid_points : cfg0.N = 4 := (by decide +kernel : grid0.N = 4)

/-- Every index of the result array is in the block of the point its row falls to, `row / 1024`. -/
theorem qkvArr_cover (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 4 := qkvArr_grid_points
  have ht : (i 0).val / 1024 < cfg0.N := by omega
  obtain ⟨-, -, -, -, -, -, e0, e1⟩ := qkvArr_index_maps ⟨(i 0).val / 1024, ht⟩
  refine ⟨⟨(i 0).val / 1024, ht⟩, flush0_3 _, ?_⟩
  rw [qkvArr_mem_block]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, ht⟩ (1 : Fin 2) * 3072 ≤ (i 1).val
      ∧ (i 1).val < win0_3.index ⟨(i 0).val / 1024, ht⟩ (1 : Fin 2) * 3072 + 3072
    rw [e1]
    omega

/-- The result array after the run is the result function. -/
theorem qkvArr_final (c : Dev nD) : (dat0 (F := Ideal) V c).arrAt 3 cfg0.N = qkvArr V c :=
  (dat0 (F := Ideal) V c).arrAt_eq_of_cover 3 (qkvArr V c) (fun t _ => qkvArr_written_back V c t) qkvArr_cover

/-- The projection's result array at `(r, f)`, whatever the region was entered from. -/
theorem arr0_apply (c : Dev nD) (r : Fin 4096) (f : Fin 3072) :
    ((dat0 (F := Ideal) V c).arrAt 3 cfg0.N : S4096x3072.Idx → EReal) (ix2 r f)
      = lin (fun e : Fin 1024 => (V c main_v0 : S4096x1024.Idx → EReal) (ix2 r e))
          (fun e : Fin 1024 => (V c main_v1 : S3072x1024.Idx → EReal) (ix2 f e))
          ((V c main_v3 : S1x3072.Idx → EReal) (ix2 (0 : Fin 1) f)) := by
  rw [qkvArr_final]
  rfl

end Cert.KernelIdeal.Hand

end
-- ==== Proof.Value1.lean ====
/-
  The attention pipeline's final result array, read at an index: eight grid points, point `t` writing positions
  `256·t … 256·t + 255` for both batch entries; position `l`, entry `n`, column `f` is the output projection of the
  sixteen head outputs of query row `(l, n)` against all 2048 keys and values of entry `n`.
-/
import proofs.«409386_j62869731279490_3_alg».proof.Proof.Dats
import proofs.«409386_j62869731279490_3_alg».proof.Proof.TileValue
import proofs.«409386_j62869731279490_3_alg».proof.Proof.MhaSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Cert.KernelIdeal Cert.KernelIdeal.Gen Cert.Mha ValueIdx
open Idealize.ShloMosaic.Pipeline (Dat)

variable (V : (c : Dev nD) → (b : Ref sig .tc) → Buf (Elt Ideal) ((c : Thread nD τ).loc b))

/-! ## The output tile as one function of its index -/

/-- Entry `(r, n, f)` of the output tile: batch entry `n`'s projected head outputs for query row `r`, from the
    entry's slabs `[:, n, :]` of the query tile, the keys and the values. -/
def tileAt (x0 : Vec Ideal S256x2x1024 .bf16) (x1 x2 : Vec Ideal S2048x2x1024 .bf16) (x3 : Vec Ideal S1024x1024 .bf16)
    (x4 : Vec Ideal S1x1024 .f32) (r : Fin 256) (n : Fin 2) (f : Fin 1024) : EReal :=
  tileOut (fun r e => (x0 : S256x2x1024.Idx → EReal) (ix3 r n e))
    (fun m e => (x1 : S2048x2x1024.Idx → EReal) (ix3 m n e))
    (fun m e => (x2 : S2048x2x1024.Idx → EReal) (ix3 m n e))
    (fun f e => (x3 : S1024x1024.Idx → EReal) (ix2 f e)) (fun f => (x4 : S1x1024.Idx → EReal) (ix2 (0 : Fin 1) f)) r f

/-- The same, as a function of the tile's index. -/
def tileFn (x0 : Vec Ideal S256x2x1024 .bf16) (x1 x2 : Vec Ideal S2048x2x1024 .bf16) (x3 : Vec Ideal S1024x1024 .bf16)
    (x4 : Vec Ideal S1x1024 .f32) : S256x2x1024.Idx → EReal := fun y => tileAt x0 x1 x2 x3 x4 (y 0) (y 1) (y 2)

/-- Where an index of a slab `[:, n, :]` sits in the tile, and in the key / value arrays. -/
theorem rT0_idx (r : Fin 256) (e : Fin 1024) : rT0.idx (ix3 r (0 : Fin 1) e) = ix3 r (0 : Fin 2) e := by
  funext a; apply Fin.ext
  match a with
  | ⟨0, _⟩ => show 0 + 1 * r.val = r.val; omega
  | ⟨1, _⟩ => show 0 + 1 * 0 = 0; omega
  | ⟨2, _⟩ => show 0 + 1 * e.val = e.val; omega
theorem rT1_idx (r : Fin 256) (e : Fin 1024) : rT1.idx (ix3 r (0 : Fin 1) e) = ix3 r (1 : Fin 2) e := by
  funext a; apply Fin.ext
  match a with
  | ⟨0, _⟩ => show 0 + 1 * r.val = r.val; omega
  | ⟨1, _⟩ => show 1 + 1 * 0 = 1; omega
  | ⟨2, _⟩ => show 0 + 1 * e.val = e.val; omega
theorem rA0_idx (m : Fin 2048) (e : Fin 1024) : rA0.idx (ix3 m (0 : Fin 1) e) = ix3 m (0 : Fin 2) e := by
  funext a; apply Fin.ext
  match a with
  | ⟨0, _⟩ => show 0 + 1 * m.val = m.val; omega
  | ⟨1, _⟩ => show 0 + 1 * 0 = 0; omega
  | ⟨2, _⟩ => show 0 + 1 * e.val = e.val; omega
theorem rA1_idx (m : Fin 2048) (e : Fin 1024) : rA1.idx (ix3 m (0 : Fin 1) e) = ix3 m (1 : Fin 2) e := by
  funext a; apply Fin.ext
  match a with
  | ⟨0, _⟩ => show 0 + 1 * m.val = m.val; omega
  | ⟨1, _⟩ => show 1 + 1 * 0 = 1; omega
  | ⟨2, _⟩ => show 0 + 1 * e.val = e.val; omega
theorem rWo_idx (f e : Fin 1024) : rWo.idx (ix2 f e) = ix2 f e := by
  funext a; apply Fin.ext
  match a with
  | ⟨0, _⟩ => show 0 + 1 * f.val = f.val; omega
  | ⟨1, _⟩ => show 0 + 1 * e.val = e.val; omega
theorem rBo_idx (f : Fin 1024) : rBo.idx (ix2 (0 : Fin 1) f) = ix2 (0 : Fin 1) f := by
  funext a; apply Fin.ext
  match a with
  | ⟨0, _⟩ => show 0 + 1 * 0 = 0; omega
  | ⟨1, _⟩ => show 0 + 1 * f.val = f.val; omega

/-- Entry `0`'s stored slab is the block `[:, 0, :]` of the tile function, -/
theorem store1_0_piece (x0 : Vec Ideal S256x2x1024 .bf16) (x1 x2 : Vec Ideal S2048x2x1024 .bf16) (x3 : Vec Ideal S1024x1024 .bf16)
    (x4 : Vec Ideal S1x1024 .f32) (r : Fin 256) (f : Fin 1024) :
    (store1_0 (F := Ideal) (View.ld x3 rWo) (View.ld x4 rBo) (View.ld x0 rT0) (View.ld x1 rA0) (View.ld x2 rA0) : S256x1x1024.Idx → EReal)
        (ix3 r (0 : Fin 1) f) = tileAt x0 x1 x2 x3 x4 r (0 : Fin 2) f := by
  rw [store1_0_apply]
  unfold tileAt
  simp only [View.ld, rT0_idx, rA0_idx, rWo_idx, rBo_idx]

/-- and entry `1`'s the block `[:, 1, :]`. -/
theorem store1_1_piece (x0 : Vec Ideal S256x2x1024 .bf16) (x1 x2 : Vec Ideal S2048x2x1024 .bf16) (x3 : Vec Ideal S1024x1024 .bf16)
    (x4 : Vec Ideal S1x1024 .f32) (r : Fin 256) (f : Fin 1024) :
    (store1_1 (F := Ideal) (View.ld x3 rWo) (View.ld x4 rBo) (View.ld x0 rT1) (View.ld x1 rA1) (View.ld x2 rA1) : S256x1x1024.Idx → EReal)
        (ix3 r (0 : Fin 1) f) = tileAt x0 x1 x2 x3 x4 r (1 : Fin 2) f := by
  rw [store1_1_apply]
  unfold tileAt
  simp only [View.ld, rT1_idx, rA1_idx, rWo_idx, rBo_idx]

/-- Entry `0`'s stored slab, at any index of the slab, is the tile function where the slab sits in the tile, -/
theorem store1_0_block (x0 : Vec Ideal S256x2x1024 .bf16) (x1 x2 : Vec Ideal S2048x2x1024 .bf16) (x3 : Vec Ideal S1024x1024 .bf16)
    (x4 : Vec Ideal S1x1024 .f32) (x : S256x1x1024.Idx) :
    (store1_0 (F := Ideal) (View.ld x3 rWo) (View.ld x4 rBo) (View.ld x0 rT0) (View.ld x1 rA0) (View.ld x2 rA0) : S256x1x1024.Idx → EReal) x
      = tileFn x0 x1 x2 x3 x4 (rT0.idx x) := by
  obtain ⟨r, z, f, rfl⟩ : ∃ (r : Fin 256) (z : Fin 1) (f : Fin 1024), x = ix3 r z f := ⟨x 0, x 1, x 2, eq_ix3 x⟩
  obtain rfl : z = 0 := Subsingleton.elim _ _
  rw [store1_0_piece, rT0_idx]
  rfl

/-- and entry `1`'s likewise. -/
theorem store1_1_block (x0 : Vec Ideal S256x2x1024 .bf16) (x1 x2 : Vec Ideal S2048x2x1024 .bf16) (x3 : Vec Ideal S1024x1024 .bf16)
    (x4 : Vec Ideal S1x1024 .f32) (x : S256x1x1024.Idx) :
    (store1_1 (F := Ideal) (View.ld x3 rWo) (View.ld x4 rBo) (View.ld x0 rT1) (View.ld x1 rA1) (View.ld x2 rA1) : S256x1x1024.Idx → EReal) x
      = tileFn x0 x1 x2 x3 x4 (rT1.idx x) := by
  obtain ⟨r, z, f, rfl⟩ : ∃ (r : Fin 256) (z : Fin 1) (f : Fin 1024), x = ix3 r z f := ⟨x 0, x 1, x 2, eq_ix3 x⟩
  obtain rfl : z = 0 := Subsingleton.elim _ _
  rw [store1_1_piece, rT1_idx]
  rfl

/-- The output tile after the body is the tile function: the two stored slabs are its blocks `[:, 1, :]` and
    `[:, 0, :]`, and between them they cover the tile. -/
theorem out1_5_eq (x0 : Vec Ideal S256x2x1024 .bf16) (x1 x2 : Vec Ideal S2048x2x1024 .bf16) (x3 : Vec Ideal S1024x1024 .bf16)
    (x4 : Vec Ideal S1x1024 .f32) :
    (out1_5 (F := Ideal) x0 x1 x2 x3 x4 : S256x2x1024.Idx → EReal) = tileFn x0 x1 x2 x3 x4 := by
  funext y
  unfold out1_5
  refine View.canon_apply_of_pieces (Val := Elt Ideal) (S := S256x2x1024) (e := .f32) (tileFn x0 x1 x2 x3 x4) _ ?_ y (cover1_5 _ _ y)
  intro p hp
  rcases List.mem_cons.mp hp with rfl | hp
  · exact fun x => store1_1_block x0 x1 x2 x3 x4 x
  · rcases List.mem_cons.mp hp with rfl | hp
    · exact fun x => store1_0_block x0 x1 x2 x3 x4 x
    · exact absurd hp List.not_mem_nil

/-! ## The result array as one function of its index -/

/-- Entry `(l, n, f)` of the result, from the packed projection `P`, the output weight and the bias row: the output
    projection of the sixteen head outputs of query row `(l, n)` against all keys and values of entry `n`. -/
def attnAt (P : S2048x2x3072.Idx → EReal) (wo : S1024x1024.Idx → EReal) (bo : S1x1024.Idx → EReal)
    (l : Fin 2048) (n : Fin 2) (f : Fin 1024) : EReal :=
  lin (fun e : Fin 1024 =>
        headK cK (fun d => P (ix3 l n (qCol (headOf e) d)))
          (fun m' d => P (ix3 m' n (kCol (headOf e) d)))
          (fun m' => P (ix3 m' n (vCol (headOf e) (inHead e)))))
      (fun e : Fin 1024 => wo (ix2 f e))
      (bo (ix2 (0 : Fin 1) f))

/-- The same, as a function of the array's index. -/
def attnArr (P : S2048x2x3072.Idx → EReal) (wo : S1024x1024.Idx → EReal) (bo : S1x1024.Idx → EReal) :
    S2048x2x1024.Idx → EReal := fun i => attnAt P wo bo (i 0) (i 1) (i 2)

/-- Column `64·h + d` of a third is column `64·h + d`, `1024 + 64·h + d`, `2048 + 64·h + d` of the packed array. -/
theorem qCol_of_hCol (h : Fin 16) (d : Fin 64) (p : (hCol h d).val < 3072) : (⟨(hCol h d).val, p⟩ : Fin 3072) = qCol h d :=
  Fin.ext rfl
theorem kCol_of_hCol (h : Fin 16) (d : Fin 64) (p : 1024 + (hCol h d).val < 3072) :
    (⟨1024 + (hCol h d).val, p⟩ : Fin 3072) = kCol h d :=
  Fin.ext (by show 1024 + (64 * h.val + d.val) = 1024 + 64 * h.val + d.val; omega)
theorem vCol_of_hCol (h : Fin 16) (d : Fin 64) (p : 2048 + (hCol h d).val < 3072) :
    (⟨2048 + (hCol h d).val, p⟩ : Fin 3072) = vCol h d :=
  Fin.ext (by show 2048 + (64 * h.val + d.val) = 2048 + 64 * h.val + d.val; omega)

/-- A tile entry is the array entry at row `l` when the tile's query row `r` is row `l` of the packed array's first
    third, its keys the second third, its values the last third, and weight and bias are the arrays'. -/
theorem tileAt_eq_attnAt (P : S2048x2x3072.Idx → EReal) (wo : S1024x1024.Idx → EReal) (bo : S1x1024.Idx → EReal)
    (x0 : Vec Ideal S256x2x1024 .bf16) (x1 x2 : Vec Ideal S2048x2x1024 .bf16) (x3 : Vec Ideal S1024x1024 .bf16)
    (x4 : Vec Ideal S1x1024 .f32) (r : Fin 256) (n : Fin 2) (f : Fin 1024) (l : Fin 2048)
    (hq : ∀ e : Fin 1024, (x0 : S256x2x1024.Idx → EReal) (ix3 r n e) = P (ix3 l n ⟨e.val, by omega⟩))
    (hk : ∀ (m : Fin 2048) (e : Fin 1024), (x1 : S2048x2x1024.Idx → EReal) (ix3 m n e) = P (ix3 m n ⟨1024 + e.val, by omega⟩))
    (hv : ∀ (m : Fin 2048) (e : Fin 1024), (x2 : S2048x2x1024.Idx → EReal) (ix3 m n e) = P (ix3 m n ⟨2048 + e.val, by omega⟩))
    (hw : ∀ f e : Fin 1024, (x3 : S1024x1024.Idx → EReal) (ix2 f e) = wo (ix2 f e))
    (hb : ∀ f : Fin 1024, (x4 : S1x1024.Idx → EReal) (ix2 (0 : Fin 1) f) = bo (ix2 (0 : Fin 1) f)) :
    tileAt x0 x1 x2 x3 x4 r n f = attnAt P wo bo l n f := by
  unfold tileAt attnAt tileOut
  simp only [hq, hk, hv, hw, hb, qCol_of_hCol, kCol_of_hCol, vCol_of_hCol]

/-! ## From the eight blocks to the array -/

/-- The windows' index maps over the eight grid points: the query window and the result window are at row block `t`;
    the key and the value window are the one block at column block `1`, `2` of the packed array; weight and bias are
    whole. -/
theorem blockIdx1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 1
    ∧ win1_2.index t (0 : Fin 3) = 0 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- The query tile at point `t` is rows `256·t …` of the packed array's first third. -/
theorem qblk_apply (c : Dev nD) (t : Fin cfg1.N) (r : Fin 256) (n : Fin 2) (e : Fin 1024) (l : Fin 2048) (e' : Fin 3072)
    (hl : l.val = 256 * t.val + r.val) (he : e'.val = e.val) :
    (iblk1 (F := Ideal) V c 0 t : S256x2x1024.Idx → EReal) (ix3 r n e)
      = (V c main_v5 : S2048x2x3072.Idx → EReal) (ix3 l n e') := by
  obtain ⟨a0, a1, a2, -⟩ := blockIdx1 t
  show (V c main_v5 : S2048x2x3072.Idx → EReal) (((cfg1.win 0).blk t).view.emb (ix3 r n e)) = _
  refine congrArg _ (funext fun a => Fin.ext ?_)
  match a with
  | ⟨0, _⟩ => show win1_0.index t (0 : Fin 3) * 256 + 1 * r.val = l.val; omega
  | ⟨1, _⟩ => show win1_0.index t (1 : Fin 3) * 2 + 1 * n.val = n.val; omega
  | ⟨2, _⟩ => show win1_0.index t (2 : Fin 3) * 1024 + 1 * e.val = e'.val; omega

/-- The keys at every point are the packed array's second third, -/
theorem kblk_apply (c : Dev nD) (t : Fin cfg1.N) (m : Fin 2048) (n : Fin 2) (e : Fin 1024) (e' : Fin 3072)
    (he : e'.val = 1024 + e.val) :
    (iblk1 (F := Ideal) V c 1 t : S2048x2x1024.Idx → EReal) (ix3 m n e)
      = (V c main_v5 : S2048x2x3072.Idx → EReal) (ix3 m n e') := by
  obtain ⟨-, -, -, a0, a1, a2, -⟩ := blockIdx1 t
  show (V c main_v5 : S2048x2x3072.Idx → EReal) (((cfg1.win 1).blk t).view.emb (ix3 m n e)) = _
  refine congrArg _ (funext fun a => Fin.ext ?_)
  match a with
  | ⟨0, _⟩ => show win1_1.index t (0 : Fin 3) * 2048 + 1 * m.val = m.val; omega
  | ⟨1, _⟩ => show win1_1.index t (1 : Fin 3) * 2 + 1 * n.val = n.val; omega
  | ⟨2, _⟩ => show win1_1.index t (2 : Fin 3) * 1024 + 1 * e.val = e'.val; omega

/-- the values its last third, -/
theorem vblk_apply (c : Dev nD) (t : Fin cfg1.N) (m : Fin 2048) (n : Fin 2) (e : Fin 1024) (e' : Fin 3072)
    (he : e'.val = 2048 + e.val) :
    (iblk1 (F := Ideal) V c 2 t : S2048x2x1024.Idx → EReal) (ix3 m n e)
      = (V c main_v5 : S2048x2x3072.Idx → EReal) (ix3 m n e') := by
  obtain ⟨-, -, -, -, -, -, a0, a1, a2, -⟩ := blockIdx1 t
  show (V c main_v5 : S2048x2x3072.Idx → EReal) (((cfg1.win 2).blk t).view.emb (ix3 m n e)) = _
  refine congrArg _ (funext fun a => Fin.ext ?_)
  match a with
  | ⟨0, _⟩ => show win1_2.index t (0 : Fin 3) * 2048 + 1 * m.val = m.val; omega
  | ⟨1, _⟩ => show win1_2.index t (1 : Fin 3) * 2 + 1 * n.val = n.val; omega
  | ⟨2, _⟩ => show win1_2.index t (2 : Fin 3) * 1024 + 1 * e.val = e'.val; omega

/-- the weight block the whole output weight, -/
theorem wblk_apply (c : Dev nD) (t : Fin cfg1.N) (f e : Fin 1024) :
    (iblk1 (F := Ideal) V c 3 t : S1024x1024.Idx → EReal) (ix2 f e) = (V c main_v2 : S1024x1024.Idx → EReal) (ix2 f e) := by
  obtain ⟨-, -, -, -, -, -, -, -, -, a0, a1, -⟩ := blockIdx1 t
  show (V c main_v2 : S1024x1024.Idx → EReal) (((cfg1.win 3).blk t).view.emb (ix2 f e)) = _
  refine congrArg _ (funext fun a => Fin.ext ?_)
  match a with
  | ⟨0, _⟩ => show win1_3.index t (0 : Fin 2) * 1024 + 1 * f.val = f.val; omega
  | ⟨1, _⟩ => show win1_3.index t (1 : Fin 2) * 1024 + 1 * e.val = e.val; omega

/-- and the bias block the whole bias row. -/
theorem bblk_apply (c : Dev nD) (t : Fin cfg1.N) (f : Fin 1024) :
    (iblk1 (F := Ideal) V c 4 t : S1x1024.Idx → EReal) (ix2 (0 : Fin 1) f)
      = (V c main_v6 : S1x1024.Idx → EReal) (ix2 (0 : Fin 1) f) := by
  obtain ⟨-, -, -, -, -, -, -, -, -, -, -, a0, a1, -⟩ := blockIdx1 t
  show (V c main_v6 : S1x1024.Idx → EReal) (((cfg1.win 4).blk t).view.emb (ix2 (0 : Fin 1) f)) = _
  refine congrArg _ (funext fun a => Fin.ext ?_)
  match a with
  | ⟨0, _⟩ => show win1_4.index t (0 : Fin 2) * 1 + 1 * 0 = 0; omega
  | ⟨1, _⟩ => show win1_4.index t (1 : Fin 2) * 1024 + 1 * f.val = f.val; omega

/-- What point `t` writes back is block `t` of the array function of the arrays as the region finds them. -/
theorem flushed1_eq (c : Dev nD) (t : Fin cfg1.N) :
    (dat1 (F := Ideal) V c).flushed 5 t
      = ((cfg1.win 5).blk t).view.read (Elt Ideal)
          (attnArr (V c main_v5 : S2048x2x3072.Idx → EReal) (V c main_v2 : S1024x1024.Idx → EReal)
            (V c main_v6 : S1x1024.Idx → EReal)) := by
  show (cfg1.win 5).cut (grid1.coords t) ((dat1 V c).after 5 t) = _
  rw [after1_5]
  funext j
  obtain ⟨r, n, f, rfl⟩ : ∃ (r : Fin 256) (n : Fin 2) (f : Fin 1024), j = ix3 r n f := ⟨j 0, j 1, j 2, eq_ix3 j⟩
  have ht : t.val < 8 := lt_of_lt_of_eq t.isLt N_1
  obtain ⟨-, -, -, -, -, -, -, -, -, -, -, -, -, o0, o1, o2⟩ := blockIdx1 t
  have hi : ((cfg1.win 5).blk t).view.emb (ix3 r n f) = ix3 (⟨256 * t.val + r.val, by omega⟩ : Fin 2048) n f := by
    funext a; apply Fin.ext
    match a with
    | ⟨0, _⟩ => show win1_5.index t (0 : Fin 3) * 256 + 1 * r.val = 256 * t.val + r.val; omega
    | ⟨1, _⟩ => show win1_5.index t (1 : Fin 3) * 2 + 1 * n.val = n.val; omega
    | ⟨2, _⟩ => show win1_5.index t (2 : Fin 3) * 1024 + 1 * f.val = f.val; omega
  show (out1_5 (F := Ideal) (iblk1 V c 0 t) (iblk1 V c 1 t) (iblk1 V c 2 t) (iblk1 V c 3 t) (iblk1 V c 4 t) : S256x2x1024.Idx → EReal) (ix3 r n f)
    = attnArr (V c main_v5 : S2048x2x3072.Idx → EReal) (V c main_v2 : S1024x1024.Idx → EReal) (V c main_v6 : S1x1024.Idx → EReal)
        (((cfg1.win 5).blk t).view.emb (ix3 r n f))
  rw [hi]
  refine (congrFun (out1_5_eq (iblk1 V c 0 t) (iblk1 V c 1 t) (iblk1 V c 2 t) (iblk1 V c 3 t) (iblk1 V c 4 t)) (ix3 r n f)).trans ?_
  exact tileAt_eq_attnAt (V c main_v5 : S2048x2x3072.Idx → EReal) (V c main_v2 : S1024x1024.Idx → EReal) (V c main_v6 : S1x1024.Idx → EReal)
    (iblk1 V c 0 t) (iblk1 V c 1 t) (iblk1 V c 2 t) (iblk1 V c 3 t) (iblk1 V c 4 t) r n f ⟨256 * t.val + r.val, by omega⟩
    (fun e => qblk_apply V c t r n e _ _ rfl rfl) (fun m e => kblk_apply V c t m n e _ rfl)
    (fun m e => vblk_apply V c t m n e _ rfl) (fun f e => wblk_apply V c t f e) (fun f => bblk_apply V c t f)

/-- An index of the array is in point `t`'s block iff each coordinate is in the block's range on its axis. -/
theorem mem_blk1 (t : Fin cfg1.N) (i : S2048x2x1024.Idx) :
    i ∈ ((cfg1.win 5).blk t).view.set ↔ ∀ a : Fin 3, win1_5.index t a * S256x2x1024.size a ≤ (i a).val
      ∧ (i a).val < win1_5.index t a * S256x2x1024.size a + S256x2x1024.size a := by
  show i ∈ ((View.whole main_v7).slice (win1_5.rect t)).set ↔ _
  rw [View.set_slice_whole, Rect.mem_set_unit]
  exact Iff.rfl

/-- Every index of the array is in some point's block: position `l` in that of point `l / 256`. -/
theorem covered1 (i : S2048x2x1024.Idx) :
    ∃ t : Fin cfg1.N, (cfg1.win 5).flush t = true ∧ i ∈ ((cfg1.win 5).blk t).view.set := by
  have hi0 : (i 0).val < 2048 := (i 0).isLt
  have hi1 : (i 1).val < 2 := (i 1).isLt
  have hi2 : (i 2).val < 1024 := (i 2).isLt
  have hN : cfg1.N = 8 := N_1
  obtain ⟨t, ht⟩ : ∃ t : Fin cfg1.N, t.val = (i 0).val / 256 := ⟨⟨(i 0).val / 256, by rw [hN]; omega⟩, rfl⟩
  obtain ⟨-, -, -, -, -, -, -, -, -, -, -, -, -, o0, o1, o2⟩ := blockIdx1 t
  refine ⟨t, flush1_5 t, ?_⟩
  rw [mem_blk1]
  intro a
  match a with
  | ⟨0, _⟩ => show win1_5.index t (0 : Fin 3) * 256 ≤ (i 0).val ∧ (i 0).val < win1_5.index t (0 : Fin 3) * 256 + 256; omega
  | ⟨1, _⟩ => show win1_5.index t (1 : Fin 3) * 2 ≤ (i 1).val ∧ (i 1).val < win1_5.index t (1 : Fin 3) * 2 + 2; omega
  | ⟨2, _⟩ => show win1_5.index t (2 : Fin 3) * 1024 ≤ (i 2).val ∧ (i 2).val < win1_5.index t (2 : Fin 3) * 1024 + 1024; omega

/-- The result array after the run is the array function of the arrays as the region finds them. -/
theorem arr1_eq (c : Dev nD) :
    ((dat1 (F := Ideal) V c).arrAt 5 cfg1.N : S2048x2x1024.Idx → EReal)
      = attnArr (V c main_v5 : S2048x2x3072.Idx → EReal) (V c main_v2 : S1024x1024.Idx → EReal)
          (V c main_v6 : S1x1024.Idx → EReal) :=
  (dat1 (F := Ideal) V c).arrAt_eq_of_cover 5 _ (fun t _ => flushed1_eq V c t) covered1

/-- The attention's result array at `(l, n, f)`, whatever the region was entered from: the packed projection `P` is
    the array all three of its first windows read. -/
theorem arr1_apply (c : Dev nD) (l : Fin 2048) (n : Fin 2) (f : Fin 1024) :
    ((dat1 (F := Ideal) V c).arrAt 5 cfg1.N : S2048x2x1024.Idx → EReal) (ix3 l n f)
      = lin (fun e : Fin 1024 =>
            headK cK (fun d => (V c main_v5 : S2048x2x3072.Idx → EReal) (ix3 l n (qCol (headOf e) d)))
              (fun m' d => (V c main_v5 : S2048x2x3072.Idx → EReal) (ix3 m' n (kCol (headOf e) d)))
              (fun m' => (V c main_v5 : S2048x2x3072.Idx → EReal) (ix3 m' n (vCol (headOf e) (inHead e)))))
          (fun e : Fin 1024 => (V c main_v2 : S1024x1024.Idx → EReal) (ix2 f e))
          ((V c main_v6 : S1x1024.Idx → EReal) (ix2 (0 : Fin 1) f)) :=
  (congrFun (arr1_eq V c) (ix3 l n f)).trans rfl

end Cert.KernelIdeal.Hand

end
-- ==== Proof.KernelValue.lean ====
/-
  The kernel program's result as a function of its five arguments: the two pipelines' result arrays joined through
  the host reshapes between them (positions and batch entries merged into rows `2·l + n` and split again; the
  weights' change of format the identity on the extended reals).
-/
import proofs.«409386_j62869731279490_3_alg».proof.Proof.Dats
import proofs.«409386_j62869731279490_3_alg».proof.Proof.TileValue
import proofs.«409386_j62869731279490_3_alg».proof.Proof.MhaSpec
import proofs.«409386_j62869731279490_3_alg».proof.Proof.Run
import proofs.«409386_j62869731279490_3_alg».proof.Proof.Value0
import proofs.«409386_j62869731279490_3_alg».proof.Proof.Value1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Cert.KernelIdeal Cert.KernelIdeal.Gen Cert.Mha ValueIdx
open Idealize.ShloMosaic.Pipeline (Dat)

/-! ## The host stretches, read at one buffer and one index, over any valuation -/

section Host

variable (X : Valuation τ sig (Elt Ideal))

/-- After the second stretch the packed projection's rank-3 form is the reshape of its rank-2 form, -/
theorem join_after1_v5 :
    (StableHlo.after (hostOps1 (F := Ideal)) X (Proc.devRef .tc main_v5) : S2048x2x3072.Idx → EReal)
      = shapeCast S2048x2x3072 (X (Proc.devRef .tc main_v4) : S4096x3072.Idx → EReal) shapeCasts_S4096x3072_S2048x2x3072 := by
  after_results; rfl

/-- and the output bias row is the reshape of the bias vector. -/
theorem join_after1_v6 :
    (StableHlo.after (hostOps1 (F := Ideal)) X (Proc.devRef .tc main_v6) : S1x1024.Idx → EReal)
      = shapeCast S1x1024 (X (Proc.devRef .tc main_arg4) : S1024.Idx → EReal) shapeCasts_S1024_S1x1024 := by
  after_results; rfl

/-- After the first stretch the input's rank-2 form is the reshape of the input, -/
theorem join_after0_v0 :
    (StableHlo.after (hostOps0 (F := Ideal)) X (Proc.devRef .tc main_v0) : S4096x1024.Idx → EReal)
      = shapeCast S4096x1024 (X (Proc.devRef .tc main_arg0) : S2048x2x1024.Idx → EReal) shapeCasts_S2048x2x1024_S4096x1024 := by
  after_results; rfl

/-- the two weights' change of format is the identity on the extended reals, -/
theorem join_after0_v1 :
    (StableHlo.after (hostOps0 (F := Ideal)) X (Proc.devRef .tc main_v1) : S3072x1024.Idx → EReal)
      = (X (Proc.devRef .tc main_arg1) : S3072x1024.Idx → EReal) := by
  after_results; rfl

theorem join_after0_v2 :
    (StableHlo.after (hostOps0 (F := Ideal)) X (Proc.devRef .tc main_v2) : S1024x1024.Idx → EReal)
      = (X (Proc.devRef .tc main_arg3) : S1024x1024.Idx → EReal) := by
  after_results; rfl

/-- and the projection's bias row is the reshape of its bias vector. -/
theorem join_after0_v3 :
    (StableHlo.after (hostOps0 (F := Ideal)) X (Proc.devRef .tc main_v3) : S1x3072.Idx → EReal)
      = shapeCast S1x3072 (X (Proc.devRef .tc main_arg2) : S3072.Idx → EReal) shapeCasts_S3072_S1x3072 := by
  after_results; rfl

/-- Position `l`, batch entry `n` of the rank-3 form is row `2·l + n` of the rank-2 form: the same row-major place. -/
theorem join_v5_apply (l : Fin 2048) (n : Fin 2) (g : Fin 3072) :
    (StableHlo.after (hostOps1 (F := Ideal)) X (Proc.devRef .tc main_v5) : S2048x2x3072.Idx → EReal) (ix3 l n g)
      = (X (Proc.devRef .tc main_v4) : S4096x3072.Idx → EReal) (ix2 (⟨2 * l.val + n.val, by omega⟩ : Fin 4096) g) := by
  rw [join_after1_v5]
  exact shapeCast_apply (s := S4096x3072) (t := S2048x2x3072) _ _ _ _ (by
    rw [Shape.rowMajor_val_two, Shape.rowMajor_val_three]
    show (2 * l.val + n.val) * 3072 + g.val = (l.val * 2 + n.val) * 3072 + g.val
    omega)

theorem join_v0_apply (l : Fin 2048) (n : Fin 2) (e : Fin 1024) :
    (StableHlo.after (hostOps0 (F := Ideal)) X (Proc.devRef .tc main_v0) : S4096x1024.Idx → EReal)
        (ix2 (⟨2 * l.val + n.val, by omega⟩ : Fin 4096) e)
      = (X (Proc.devRef .tc main_arg0) : S2048x2x1024.Idx → EReal) (ix3 l n e) := by
  rw [join_after0_v0]
  exact shapeCast_apply (s := S2048x2x1024) (t := S4096x1024) _ _ _ _ (by
    rw [Shape.rowMajor_val_two, Shape.rowMajor_val_three]
    show (l.val * 2 + n.val) * 1024 + e.val = (2 * l.val + n.val) * 1024 + e.val
    omega)

theorem join_v3_apply (g : Fin 3072) :
    (StableHlo.after (hostOps0 (F := Ideal)) X (Proc.devRef .tc main_v3) : S1x3072.Idx → EReal) (ix2 (0 : Fin 1) g)
      = (X (Proc.devRef .tc main_arg2) : S3072.Idx → EReal) (ix1 g) := by
  rw [join_after0_v3]
  exact shapeCast_apply (s := S3072) (t := S1x3072) _ _ _ _ (by
    rw [Shape.rowMajor_val_two, Shape.rowMajor_val_one]
    show g.val = 0 * 3072 + g.val
    omega)

theorem join_v6_apply (f : Fin 1024) :
    (StableHlo.after (hostOps1 (F := Ideal)) X (Proc.devRef .tc main_v6) : S1x1024.Idx → EReal) (ix2 (0 : Fin 1) f)
      = (X (Proc.devRef .tc main_arg4) : S1024.Idx → EReal) (ix1 f) := by
  rw [join_after1_v6]
  exact shapeCast_apply (s := S1024) (t := S1x1024) _ _ _ _ (by
    rw [Shape.rowMajor_val_two, Shape.rowMajor_val_one]
    show f.val = 0 * 1024 + f.val
    omega)

end Host

/-! ## The two result arrays joined -/

section Join

variable (m : (ℓ : Loc nD τ sig) → Buf (Elt Ideal) ℓ) (c : Dev nD)

/-- What the attention region reads as the packed projection is the specification's `qkv` of the first three
    arguments: the reshape back to positions and batch entries, the projection's array at row `2·l + n`, and the
    first stretch's reshapes and changes of format read at an index. -/
theorem join_P_apply (l : Fin 2048) (n : Fin 2) (g : Fin 3072) :
    (U3 (F := Ideal) m c main_v5 : S2048x2x3072.Idx → EReal) (ix3 l n g)
      = qkv (cur3 (m ((c.tc : Thread nD τ).loc main_arg0) : S2048x2x1024.Idx → EReal))
          (cur2 (m ((c.tc : Thread nD τ).loc main_arg1) : S3072x1024.Idx → EReal))
          (cur1 (m ((c.tc : Thread nD τ).loc main_arg2) : S3072.Idx → EReal)) l n g := by
  show (StableHlo.after (hostOps1 (F := Ideal)) (W2 m c) (Proc.devRef .tc main_v5) : S2048x2x3072.Idx → EReal) (ix3 l n g) = _
  rw [join_v5_apply, W2_main_v4]
  unfold A4
  rw [arr0_apply (U1 m) c _ g]
  unfold qkv
  have e0 : (fun e : Fin 1024 => (U1 (F := Ideal) m c main_v0 : S4096x1024.Idx → EReal) (ix2 (⟨2 * l.val + n.val, by omega⟩ : Fin 4096) e))
      = cur3 (m ((c.tc : Thread nD τ).loc main_arg0) : S2048x2x1024.Idx → EReal) l n := by
    funext e
    show (StableHlo.after (hostOps0 (F := Ideal)) (W0 m c) (Proc.devRef .tc main_v0) : S4096x1024.Idx → EReal) (ix2 _ e) = _
    rw [join_v0_apply]; rfl
  have e1 : (fun e : Fin 1024 => (U1 (F := Ideal) m c main_v1 : S3072x1024.Idx → EReal) (ix2 g e))
      = cur2 (m ((c.tc : Thread nD τ).loc main_arg1) : S3072x1024.Idx → EReal) g := by
    funext e
    show (StableHlo.after (hostOps0 (F := Ideal)) (W0 m c) (Proc.devRef .tc main_v1) : S3072x1024.Idx → EReal) (ix2 g e) = _
    rw [join_after0_v1]; rfl
  have e3 : (U1 (F := Ideal) m c main_v3 : S1x3072.Idx → EReal) (ix2 (0 : Fin 1) g)
      = cur1 (m ((c.tc : Thread nD τ).loc main_arg2) : S3072.Idx → EReal) g := by
    show (StableHlo.after (hostOps0 (F := Ideal)) (W0 m c) (Proc.devRef .tc main_v3) : S1x3072.Idx → EReal) (ix2 (0 : Fin 1) g) = _
    rw [join_v3_apply]; rfl
  rw [e0, e1, e3]

/-- The output projection's weight as the attention region reads it is the fourth argument: the second stretch and
    the projection region leave it, and its change of format is the identity. -/
theorem join_Wo_apply (f e : Fin 1024) :
    (U3 (F := Ideal) m c main_v2 : S1024x1024.Idx → EReal) (ix2 f e)
      = cur2 (m ((c.tc : Thread nD τ).loc main_arg3) : S1024x1024.Idx → EReal) f e := by
  show (W3 (F := Ideal) m c (Proc.devRef .tc main_v2) : S1024x1024.Idx → EReal) (ix2 f e) = _
  rw [W3_of m c main_v2 (by decide), W2_of_ne m c main_v2 (by decide)]
  show (StableHlo.after (hostOps0 (F := Ideal)) (W0 m c) (Proc.devRef .tc main_v2) : S1024x1024.Idx → EReal) (ix2 f e) = _
  rw [join_after0_v2]; rfl

/-- The output bias row is the fifth argument. -/
theorem join_Bo_apply (f : Fin 1024) :
    (U3 (F := Ideal) m c main_v6 : S1x1024.Idx → EReal) (ix2 (0 : Fin 1) f)
      = cur1 (m ((c.tc : Thread nD τ).loc main_arg4) : S1024.Idx → EReal) f := by
  show (StableHlo.after (hostOps1 (F := Ideal)) (W2 m c) (Proc.devRef .tc main_v6) : S1x1024.Idx → EReal) (ix2 (0 : Fin 1) f) = _
  rw [join_v6_apply, W2_of_ne m c main_arg4 (by decide), W1_of m c main_arg4 (by decide)]; rfl

end Join

/-- The result buffer at `(l, n, f)` is the specification's `outK` of the five argument arrays, at the scale `0.125`. -/
theorem kernel_out (m : (ℓ : Loc nD τ sig) → Buf (Elt Ideal) ℓ) (c : Dev nD) (l : Fin 2048) (n : Fin 2) (f : Fin 1024) :
    (A7 (F := Ideal) m c : S2048x2x1024.Idx → EReal) (ix3 l n f)
      = outK (cur3 (m ((c.tc : Thread nD τ).loc main_arg0) : S2048x2x1024.Idx → EReal))
          (cur2 (m ((c.tc : Thread nD τ).loc main_arg1) : S3072x1024.Idx → EReal))
          (cur1 (m ((c.tc : Thread nD τ).loc main_arg2) : S3072.Idx → EReal))
          (cur2 (m ((c.tc : Thread nD τ).loc main_arg3) : S1024x1024.Idx → EReal))
          (cur1 (m ((c.tc : Thread nD τ).loc main_arg4) : S1024.Idx → EReal)) cK l n f := by
  unfold A7
  rw [arr1_apply (U3 m) c l n f]
  unfold outK attnK
  refine congr (congr (congrArg lin (funext fun e => ?_)) (funext fun e => join_Wo_apply m c f e)) (join_Bo_apply m c f)
  exact congr (congr (congrArg (headK cK) (funext fun d => join_P_apply m c l n _))
    (funext fun m' => funext fun d => join_P_apply m c m' n _)) (funext fun m' => join_P_apply m c m' n _)

end Cert.KernelIdeal.Hand

end
-- ==== Proof.RefValue.lean ====
/-
  The reference's result, read at an index: the output projection of the concatenated heads, each head's weights
  normalised before they weight the values, the query scaled by `1 / √64` before the dot product.

  Read from the result backwards, every array the program forms is one entry of the specification: the packed
  projection at (l, n, f) is `qkv`; after the slices, the reshape 1024 = 16 × 64 and the transposition, the query,
  key and value at (n, h, l, d) are its columns `64·h + d`, `1024 + 64·h + d`, `2048 + 64·h + d`; a score is the
  scaled query row against a key row; the row maximum is folded from −∞ (a further maximum against −∞ changes nothing);
  a weight is `exp (score − maximum)`, divided by the row's sum (taken from zero); a head's output coordinate is the
  normalised weights against a value column; transposed and reshaped back, column e of the concatenation sits in head
  `e / 64` at place `e % 64`; and the last linear layer gives `outR`. The index arithmetic of the two reshapes is
  (((l·2 + n)·16 + h)·64 + d) = (l·2 + n)·1024 + (64·h + d), with h < 16 and d < 64.
-/
import proofs.«409386_j62869731279490_3_alg».proof.Proof.Gen.ReferenceIdeal.Run
import proofs.«409386_j62869731279490_3_alg».proof.Proof.Gen.ReferenceIdeal.Read
import proofs.«409386_j62869731279490_3_alg».proof.Proof.MhaSpec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Cert.ReferenceIdeal Cert.ReferenceIdeal.Gen Cert.Mha
open Cert.ReferenceIdeal.Read Idealize.ShloMosaic.ValueIdx

/-- The reference's scale, as its program computes it. -/
abbrev cR : EReal := Ideal.div (Ideal.ofBits .f32 0x3F800000#32) (Ideal.sqrt (Ideal.ofBits .f32 0x42800000#32))

/-- The five argument arrays' types. -/
abbrev T0 := (⟨S2048x2x1024, .f32⟩ : BufTy).Contents (Elt Ideal)
abbrev T1 := (⟨S3072x1024, .f32⟩ : BufTy).Contents (Elt Ideal)
abbrev T2 := (⟨S3072, .f32⟩ : BufTy).Contents (Elt Ideal)
abbrev T3 := (⟨S1024x1024, .f32⟩ : BufTy).Contents (Elt Ideal)
abbrev T4 := (⟨S1024, .f32⟩ : BufTy).Contents (Elt Ideal)

variable (x0 : T0) (x1 : T1) (x2 : T2) (x3 : T3) (x4 : T4)

/-- The packed projection, as the specification reads it off the three argument arrays. -/
abbrev proj (l : Fin 2048) (n : Fin 2) (f : Fin 3072) : EReal :=
  qkv (cur3 (x0 : S2048x2x1024.Idx → EReal)) (cur2 (x1 : S3072x1024.Idx → EReal)) (cur1 (x2 : S3072.Idx → EReal)) l n f

theorem lidx0 (l : Fin 2048) (n : Fin 2) (f : Fin 3072) (k : Fin 1024) :
    lidx_main_v0 (ix3 l n f) k = ix3 l n k :=
  funext fun a => Fin.ext (by match a with | ⟨0, _⟩ => rfl | ⟨1, _⟩ => rfl | ⟨2, _⟩ => rfl)

theorem ridx0 (l : Fin 2048) (n : Fin 2) (f : Fin 3072) (k : Fin 1024) :
    ridx_main_v0 (ix3 l n f) k = ix2 f k :=
  funext fun a => Fin.ext (by match a with | ⟨0, _⟩ => rfl | ⟨1, _⟩ => rfl)

theorem bidx (l : Fin 2048) (n : Fin 2) (f : Fin 3072) :
    idx_main_v1 (idx_main_v2 (ix3 l n f)) = ix1 f :=
  funext fun a => Fin.ext (by match a with | ⟨0, _⟩ => rfl)

/-- The packed projection plus its bias at position l, batch n, column f. -/
theorem v3_at (l : Fin 2048) (n : Fin 2) (f : Fin 3072) :
    val_main_v3 (F := Ideal) x0 x1 x2 (ix3 l n f) = proj x0 x1 x2 l n f := by
  rw [val_main_v3_apply, val_main_v0_apply, val_main_v2_apply, val_main_v1_apply, bidx]
  simp only [lidx0, ridx0, Ideal.addf_def]
  rfl

theorem qidx (n : Fin 2) (h : Fin 16) (l : Fin 2048) (d : Fin 64) :
    idx_main_v4 (idx_main_v7 (idx_main_v8 (ix4 n h l d))) = ix3 l n (qCol h d) :=
  funext fun a => Fin.ext (by
    have hl := l.isLt; have hn := n.isLt; have hh := h.isLt; have hd := d.isLt
    match a with
    | ⟨0, _⟩ => show (((l.val * 2 + n.val) * 16 + h.val) * 64 + d.val) / 2048 = l.val; omega
    | ⟨1, _⟩ => show (((l.val * 2 + n.val) * 16 + h.val) * 64 + d.val) / 1024 % 2 = n.val; omega
    | ⟨2, _⟩ => show (((l.val * 2 + n.val) * 16 + h.val) * 64 + d.val) % 1024 = 64 * h.val + d.val; omega)

theorem kidx (n : Fin 2) (h : Fin 16) (l : Fin 2048) (d : Fin 64) :
    idx_main_v5 (idx_main_v9 (idx_main_v10 (ix4 n h l d))) = ix3 l n (kCol h d) :=
  funext fun a => Fin.ext (by
    have hl := l.isLt; have hn := n.isLt; have hh := h.isLt; have hd := d.isLt
    match a with
    | ⟨0, _⟩ => show (((l.val * 2 + n.val) * 16 + h.val) * 64 + d.val) / 2048 = l.val; omega
    | ⟨1, _⟩ => show (((l.val * 2 + n.val) * 16 + h.val) * 64 + d.val) / 1024 % 2 = n.val; omega
    | ⟨2, _⟩ => show 1024 + (((l.val * 2 + n.val) * 16 + h.val) * 64 + d.val) % 1024 = 1024 + 64 * h.val + d.val; omega)

theorem vidx (n : Fin 2) (h : Fin 16) (l : Fin 2048) (d : Fin 64) :
    idx_main_v6 (idx_main_v11 (idx_main_v12 (ix4 n h l d))) = ix3 l n (vCol h d) :=
  funext fun a => Fin.ext (by
    have hl := l.isLt; have hn := n.isLt; have hh := h.isLt; have hd := d.isLt
    match a with
    | ⟨0, _⟩ => show (((l.val * 2 + n.val) * 16 + h.val) * 64 + d.val) / 2048 = l.val; omega
    | ⟨1, _⟩ => show (((l.val * 2 + n.val) * 16 + h.val) * 64 + d.val) / 1024 % 2 = n.val; omega
    | ⟨2, _⟩ => show 2048 + (((l.val * 2 + n.val) * 16 + h.val) * 64 + d.val) % 1024 = 2048 + 64 * h.val + d.val; omega)

/-- The query of head h, batch n, position l, place d is the packed projection's column 64·h + d. -/
theorem v8_at (n : Fin 2) (h : Fin 16) (l : Fin 2048) (d : Fin 64) :
    val_main_v8 (F := Ideal) x0 x1 x2 (ix4 n h l d) = proj x0 x1 x2 l n (qCol h d) := by
  rw [val_main_v8_apply, val_main_v7_apply, val_main_v4_apply, qidx, v3_at]

/-- The key likewise, from the second third of the columns. -/
theorem v10_at (n : Fin 2) (h : Fin 16) (l : Fin 2048) (d : Fin 64) :
    val_main_v10 (F := Ideal) x0 x1 x2 (ix4 n h l d) = proj x0 x1 x2 l n (kCol h d) := by
  rw [val_main_v10_apply, val_main_v9_apply, val_main_v5_apply, kidx, v3_at]

/-- The value likewise, from the last third. -/
theorem v12_at (n : Fin 2) (h : Fin 16) (l : Fin 2048) (d : Fin 64) :
    val_main_v12 (F := Ideal) x0 x1 x2 (ix4 n h l d) = proj x0 x1 x2 l n (vCol h d) := by
  rw [val_main_v12_apply, val_main_v11_apply, val_main_v6_apply, vidx, v3_at]

/-- The scale the program computes, broadcast: 1 / √64 at every index. -/
theorem v15_at (i : S2x16x2048x64.Idx) : val_main_v15 (F := Ideal) i = cR := by
  rw [val_main_v15_apply, val_main_v14_apply, val_main_v13_apply, val_main_cst_apply, val_main_cst_0_apply]
  rfl

/-- The scaled query. -/
theorem v16_at (n : Fin 2) (h : Fin 16) (l : Fin 2048) (d : Fin 64) :
    val_main_v16 (F := Ideal) x0 x1 x2 (ix4 n h l d) = proj x0 x1 x2 l n (qCol h d) * cR := by
  rw [val_main_v16_apply, v8_at, v15_at]
  rfl

/-- Head h's query row at position l, batch n; its key rows; and one value column. -/
abbrev qRow (n : Fin 2) (h : Fin 16) (l : Fin 2048) : Fin 64 → EReal := fun d => proj x0 x1 x2 l n (qCol h d)
abbrev kRows (n : Fin 2) (h : Fin 16) : Fin 2048 → Fin 64 → EReal := fun m d => proj x0 x1 x2 m n (kCol h d)
abbrev vColumn (n : Fin 2) (h : Fin 16) (d : Fin 64) : Fin 2048 → EReal := fun m => proj x0 x1 x2 m n (vCol h d)
/-- The row of scores of head h, batch n, query position l. -/
abbrev scoreRow (n : Fin 2) (h : Fin 16) (l : Fin 2048) : Fin 2048 → EReal :=
  scoreR cR (qRow x0 x1 x2 n h l) (kRows x0 x1 x2 n h)

theorem lidx17 (n : Fin 2) (h : Fin 16) (l m : Fin 2048) (k : Fin 64) :
    lidx_main_v17 (ix4 n h l m) k = ix4 n h l k :=
  funext fun a => Fin.ext (by match a with | ⟨0, _⟩ => rfl | ⟨1, _⟩ => rfl | ⟨2, _⟩ => rfl | ⟨3, _⟩ => rfl)

theorem ridx17 (n : Fin 2) (h : Fin 16) (l m : Fin 2048) (k : Fin 64) :
    ridx_main_v17 (ix4 n h l m) k = ix4 n h m k :=
  funext fun a => Fin.ext (by match a with | ⟨0, _⟩ => rfl | ⟨1, _⟩ => rfl | ⟨2, _⟩ => rfl | ⟨3, _⟩ => rfl)

/-- The score of query position l against key position m. -/
theorem v17_at (n : Fin 2) (h : Fin 16) (l m : Fin 2048) :
    val_main_v17 (F := Ideal) x0 x1 x2 (ix4 n h l m) = scoreRow x0 x1 x2 n h l m := by
  rw [val_main_v17_apply]
  simp only [lidx17, ridx17, v16_at, v10_at]
  rfl

theorem negInf : Ideal.ofBits .f32 0xFF800000#32 = (⊥ : EReal) := by simp [Ideal.ofBits, Ideal.ieee]

theorem red_lift (hr : S2x16x2048x2048.Reduces [3] S2x16x2048) (n : Fin 2) (h : Fin 16) (l : Fin 2048)
    (k : Fin (S2x16x2048x2048.size 3)) : hr.lift (ix3 n h l) k = ix4 n h l (⟨k.val, k.isLt⟩ : Fin 2048) :=
  funext fun a => Fin.ext (by match a with | ⟨0, _⟩ => rfl | ⟨1, _⟩ => rfl | ⟨2, _⟩ => rfl | ⟨3, _⟩ => rfl)

/-- The row maximum, folded from −∞. -/
theorem v18_at (n : Fin 2) (h : Fin 16) (l : Fin 2048) :
    val_main_v18 (F := Ideal) x0 x1 x2 (ix3 n h l) = rowMax (scoreRow x0 x1 x2 n h l) := by
  have hr : S2x16x2048x2048.Reduces [3] S2x16x2048 := by decide
  unfold val_main_v18
  rw [Host.reduce_eq_fold_single FloatOps.maximumf _ _ Facts₀.reducesTo_S2x16x2048x2048_S2x16x2048_d3 hr Facts₀.h_S_]
  rw [val_main_cst_1_apply, Ideal.ofBits_def, negInf]
  unfold rowMax
  have hf : (val_main_v17 (F := Ideal) x0 x1 x2 ∘ hr.lift (ix3 n h l)) = fun k : Fin 2048 => scoreRow x0 x1 x2 n h l k :=
    funext fun k => by
      show val_main_v17 (F := Ideal) x0 x1 x2 (hr.lift (ix3 n h l) k) = _
      rw [red_lift, v17_at]
      rfl
  rw [hf]
  rfl

/-- The extra maximum against a broadcast −∞ changes nothing. -/
theorem v20_at (n : Fin 2) (h : Fin 16) (l : Fin 2048) :
    val_main_v20 (F := Ideal) x0 x1 x2 (ix3 n h l) = rowMax (scoreRow x0 x1 x2 n h l) := by
  rw [val_main_v20_apply, v18_at, val_main_v19_apply, val_main_cst_2_apply, Ideal.ofBits_def, negInf, Ideal.maximumf_def]
  exact max_eq_right bot_le

theorem idx22 (n : Fin 2) (h : Fin 16) (l m : Fin 2048) :
    idx_main_v21 (idx_main_v22 (ix4 n h l m)) = ix3 n h l :=
  funext fun a => Fin.ext (by match a with | ⟨0, _⟩ => rfl | ⟨1, _⟩ => rfl | ⟨2, _⟩ => rfl)

/-- A weight: exp (score − row maximum). -/
theorem v24_at (n : Fin 2) (h : Fin 16) (l m : Fin 2048) :
    val_main_v24 (F := Ideal) x0 x1 x2 (ix4 n h l m) = wt (scoreRow x0 x1 x2 n h l) m := by
  rw [val_main_v24_apply, val_main_v23_apply, val_main_v22_apply, val_main_v21_apply, idx22, v20_at, v17_at]
  rfl

theorem idx25 (n : Fin 2) (h : Fin 16) (l : Fin 2048) (k : Fin 2048) :
    idx_main_v25 (ix3 n h l) k = ix4 n h l k :=
  funext fun a => Fin.ext (by match a with | ⟨0, _⟩ => rfl | ⟨1, _⟩ => rfl | ⟨2, _⟩ => rfl | ⟨3, _⟩ => rfl)

/-- The sum of a row's weights (from the zero word). -/
theorem v25_at (n : Fin 2) (h : Fin 16) (l : Fin 2048) :
    val_main_v25 (F := Ideal) x0 x1 x2 (ix3 n h l) = ∑ m : Fin 2048, wt (scoreRow x0 x1 x2 n h l) m := by
  rw [val_main_v25_apply, val_main_cst_3_apply, Ideal.ofBits_def, Ideal.ofBits_zero_f32, zero_add]
  simp only [idx25, v24_at]

theorem idx27 (n : Fin 2) (h : Fin 16) (l m : Fin 2048) :
    idx_main_v26 (idx_main_v27 (ix4 n h l m)) = ix3 n h l :=
  funext fun a => Fin.ext (by match a with | ⟨0, _⟩ => rfl | ⟨1, _⟩ => rfl | ⟨2, _⟩ => rfl)

/-- A normalised weight. -/
theorem v28_at (n : Fin 2) (h : Fin 16) (l m : Fin 2048) :
    val_main_v28 (F := Ideal) x0 x1 x2 (ix4 n h l m)
      = Ideal.div (wt (scoreRow x0 x1 x2 n h l) m) (∑ m' : Fin 2048, wt (scoreRow x0 x1 x2 n h l) m') := by
  rw [val_main_v28_apply, v24_at, val_main_v27_apply, val_main_v26_apply, idx27, v25_at]
  rfl

theorem lidx29 (n : Fin 2) (h : Fin 16) (l : Fin 2048) (d : Fin 64) (k : Fin 2048) :
    lidx_main_v29 (ix4 n h l d) k = ix4 n h l k :=
  funext fun a => Fin.ext (by match a with | ⟨0, _⟩ => rfl | ⟨1, _⟩ => rfl | ⟨2, _⟩ => rfl | ⟨3, _⟩ => rfl)

theorem ridx29 (n : Fin 2) (h : Fin 16) (l : Fin 2048) (d : Fin 64) (k : Fin 2048) :
    ridx_main_v29 (ix4 n h l d) k = ix4 n h k d :=
  funext fun a => Fin.ext (by match a with | ⟨0, _⟩ => rfl | ⟨1, _⟩ => rfl | ⟨2, _⟩ => rfl | ⟨3, _⟩ => rfl)

/-- One coordinate of one head's output: the normalised weights against a value column. -/
theorem v29_at (n : Fin 2) (h : Fin 16) (l : Fin 2048) (d : Fin 64) :
    val_main_v29 (F := Ideal) x0 x1 x2 (ix4 n h l d)
      = headR cR (qRow x0 x1 x2 n h l) (kRows x0 x1 x2 n h) (vColumn x0 x1 x2 n h d) := by
  rw [val_main_v29_apply]
  simp only [lidx29, ridx29, v28_at, v12_at]
  rfl

theorem idx31 (l : Fin 2048) (n : Fin 2) (e : Fin 1024) :
    idx_main_v30 (idx_main_v31 (ix3 l n e)) = ix4 n (headOf e) l (inHead e) :=
  funext fun a => Fin.ext (by
    have hl := l.isLt; have hn := n.isLt; have he := e.isLt
    match a with
    | ⟨0, _⟩ => show ((l.val * 2 + n.val) * 1024 + e.val) / 1024 % 2 = n.val; omega
    | ⟨1, _⟩ => show ((l.val * 2 + n.val) * 1024 + e.val) / 64 % 16 = e.val / 64; omega
    | ⟨2, _⟩ => show ((l.val * 2 + n.val) * 1024 + e.val) / 2048 = l.val; omega
    | ⟨3, _⟩ => show ((l.val * 2 + n.val) * 1024 + e.val) % 64 = e.val % 64; omega)

/-- The heads concatenated back: column e belongs to head e / 64, place e % 64. -/
theorem v31_at (l : Fin 2048) (n : Fin 2) (e : Fin 1024) :
    val_main_v31 (F := Ideal) x0 x1 x2 (ix3 l n e)
      = attnR (cur3 (x0 : S2048x2x1024.Idx → EReal)) (cur2 (x1 : S3072x1024.Idx → EReal)) (cur1 (x2 : S3072.Idx → EReal)) cR l n e := by
  rw [val_main_v31_apply, val_main_v30_apply, idx31, v29_at]
  rfl

theorem lidx32 (l : Fin 2048) (n : Fin 2) (f : Fin 1024) (k : Fin 1024) :
    lidx_main_v32 (ix3 l n f) k = ix3 l n k :=
  funext fun a => Fin.ext (by match a with | ⟨0, _⟩ => rfl | ⟨1, _⟩ => rfl | ⟨2, _⟩ => rfl)

theorem ridx32 (l : Fin 2048) (n : Fin 2) (f : Fin 1024) (k : Fin 1024) :
    ridx_main_v32 (ix3 l n f) k = ix2 f k :=
  funext fun a => Fin.ext (by match a with | ⟨0, _⟩ => rfl | ⟨1, _⟩ => rfl)

theorem bidx34 (l : Fin 2048) (n : Fin 2) (f : Fin 1024) :
    idx_main_v33 (idx_main_v34 (ix3 l n f)) = ix1 f :=
  funext fun a => Fin.ext (by match a with | ⟨0, _⟩ => rfl)

/-- The output projection of the concatenated heads, plus its bias. -/
theorem v35_at (l : Fin 2048) (n : Fin 2) (f : Fin 1024) :
    val_main_v35 (F := Ideal) x0 x1 x2 x3 x4 (ix3 l n f)
      = outR (cur3 (x0 : S2048x2x1024.Idx → EReal)) (cur2 (x1 : S3072x1024.Idx → EReal)) (cur1 (x2 : S3072.Idx → EReal))
          (cur2 (x3 : S1024x1024.Idx → EReal)) (cur1 (x4 : S1024.Idx → EReal)) cR l n f := by
  rw [val_main_v35_apply, val_main_v32_apply, val_main_v34_apply, val_main_v33_apply, bidx34]
  simp only [lidx32, ridx32, v31_at, Ideal.addf_def]
  rfl

/-- The run's result term at index `(l, n, f)` is the specification's `outR` of the five argument arrays. -/
theorem ref_out (m : (ℓ : Loc nD τ sig) → Buf (Elt Ideal) ℓ) (c : Dev nD) (l : Fin 2048) (n : Fin 2) (f : Fin 1024) :
    (Cert.ReferenceIdeal.Value.res_out0 (F := Ideal) m c : S2048x2x1024.Idx → EReal) (ValueIdx.ix3 l n f)
      = outR (cur3 (m ((c.tc : Thread nD τ).loc main_arg0) : S2048x2x1024.Idx → EReal))
          (cur2 (m ((c.tc : Thread nD τ).loc main_arg1) : S3072x1024.Idx → EReal))
          (cur1 (m ((c.tc : Thread nD τ).loc main_arg2) : S3072.Idx → EReal))
          (cur2 (m ((c.tc : Thread nD τ).loc main_arg3) : S1024x1024.Idx → EReal))
          (cur1 (m ((c.tc : Thread nD τ).loc main_arg4) : S1024.Idx → EReal)) cR l n f := by
  show (Cert.ReferenceIdeal.Value.res_main_v35 (F := Ideal) m c : S2048x2x1024.Idx → EReal) (ValueIdx.ix3 l n f) = _
  rw [val_main_v35_eq]
  exact v35_at _ _ _ _ _ l n f

end Cert.ReferenceIdeal.RefValue

end
-- ==== Proof.MhaAlgebra.lean ====
/-
  The two ways of computing attention agree on finite inputs.
-/
import proofs.«409386_j62869731279490_3_alg».proof.Proof.MhaSpec
import Mathlib.Data.Finset.Fold
import Mathlib.Data.Finset.Lattice.Fold
import Mathlib.Algebra.BigOperators.Ring.Finset
import Mathlib.Algebra.Order.BigOperators.Group.Finset
import Mathlib.Analysis.SpecialFunctions.Sqrt

noncomputable section

namespace Cert.Mha

open Idealize.ShloMosaic

/-! ### The three constants -/

/-- The pattern of 1.0 denotes the real 1. -/
theorem ofBits_one : Ideal.ofBits .f32 0x3F800000#32 = ((1 : ℝ) : EReal) := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- √64 = 8. -/
theorem sqrt_64 : Real.sqrt 64 = 8 := by
  rw [show (64 : ℝ) = 8 ^ 2 by norm_num]
  exact Real.sqrt_sq (by norm_num)

/-- The reference's scale `1 / √64` is the kernel's `0.125`. -/
theorem scale_eq :
    Ideal.div (Ideal.ofBits .f32 0x3F800000#32) (Ideal.sqrt (Ideal.ofBits .f32 0x42800000#32)) = Ideal.ofBits .f32 0x3E000000#32 := by
  rw [ofBits_one, ofBits_64, ofBits_eighth, Ideal.sqrt_coe, if_neg (by norm_num), sqrt_64,
    Ideal.div_coe (by norm_num), ← EReal.coe_mul, one_mul]

/-- The scale is a real number. -/
theorem scale_real : ∃ r : ℝ, Ideal.ofBits .f32 0x3E000000#32 = (r : EReal) :=
  ⟨1 / 8, ofBits_eighth⟩

/-! ### Finite sums of reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A linear layer's entry over real data is real. -/
theorem lin_real {C : Nat} (x w : Fin C → EReal) (b : EReal) (hx : ∀ e, ∃ r : ℝ, x e = (r : EReal))
    (hw : ∀ e, ∃ r : ℝ, w e = (r : EReal)) (hb : ∃ r : ℝ, b = (r : EReal)) : ∃ r : ℝ, lin x w b = (r : EReal) := by
  obtain ⟨rb, rfl⟩ := hb
  choose rx hx using hx
  choose rw hw using hw
  refine ⟨(∑ e : Fin C, rx e * rw e) + rb, ?_⟩
  rw [lin, EReal.coe_add, coe_sum]
  simp only [hx, hw, EReal.coe_mul]

/-! ### The scores -/

/-- The kernel's score on real data: the real dot product times the real scale. -/
theorem scoreK_coe (rc : ℝ) (rq : Fin 64 → ℝ) (rk : Fin 2048 → Fin 64 → ℝ) (m : Fin 2048) :
    scoreK (rc : EReal) (fun e => (rq e : EReal)) (fun m e => (rk m e : EReal)) m
      = (((∑ e : Fin 64, rq e * rk m e) * rc : ℝ) : EReal) := by
  rw [scoreK, EReal.coe_mul, coe_sum]
  simp only [EReal.coe_mul]

/-- The reference's score on real data is the same real number. -/
theorem scoreR_coe (rc : ℝ) (rq : Fin 64 → ℝ) (rk : Fin 2048 → Fin 64 → ℝ) (m : Fin 2048) :
    scoreR (rc : EReal) (fun e => (rq e : EReal)) (fun m e => (rk m e : EReal)) m
      = (((∑ e : Fin 64, rq e * rk m e) * rc : ℝ) : EReal) := by
  have h : (∑ e : Fin 64, rq e * rk m e) * rc = ∑ e : Fin 64, (rq e * rc) * rk m e := by
    rw [Finset.sum_mul]
    exact Finset.sum_congr rfl fun e _ => by ring
  rw [scoreR, h, coe_sum]
  simp only [EReal.coe_mul]

/-! ### The row maximum and the weights -/

/-- The maximum of a nonempty real row, folded from −∞, is a real number. -/
theorem rowMax_coe {n : Nat} (hn : 0 < n) (s : Fin n → ℝ) :
    ∃ M : ℝ, rowMax (fun m => (s m : EReal)) = (M : EReal) := by
  have hne : (Finset.univ : Finset (Fin n)).Nonempty := ⟨⟨0, hn⟩, Finset.mem_univ _⟩
  refine ⟨Finset.univ.sup' hne s, ?_⟩
  apply le_antisymm
  · rw [rowMax, Finset.fold_max_le]
    exact ⟨bot_le, fun x _ => EReal.coe_le_coe_iff.2 (Finset.le_sup' s (Finset.mem_univ x))⟩
  · rw [rowMax, Finset.le_fold_max]
    obtain ⟨m0, _, hm0⟩ := Finset.exists_mem_eq_sup' hne s
    exact Or.inr ⟨m0, Finset.mem_univ _, by rw [hm0]⟩

/-- The weights of a real row are positive real numbers. -/
theorem wt_coe (s : Fin 2048 → ℝ) :
    ∃ p : Fin 2048 → ℝ, (∀ m, 0 < p m) ∧ wt (fun m => (s m : EReal)) = fun m => (p m : EReal) := by
  obtain ⟨M, hM⟩ := rowMax_coe (by norm_num) s
  refine ⟨fun m => Real.exp (s m - M), fun m => Real.exp_pos _, ?_⟩
  funext m
  simp only [wt, hM]
  rw [← EReal.coe_sub, Ideal.exp_coe]

/-- On real data with a real scale, a head's output coordinate is the same either way. -/
theorem headK_eq_headR (c : EReal) (hc : ∃ r : ℝ, c = (r : EReal)) (q : Fin 64 → EReal) (k : Fin 2048 → Fin 64 → EReal)
    (v : Fin 2048 → EReal) (hq : ∀ e, ∃ r : ℝ, q e = (r : EReal)) (hk : ∀ m e, ∃ r : ℝ, k m e = (r : EReal))
    (hv : ∀ m, ∃ r : ℝ, v m = (r : EReal)) : headK c q k v = headR c q k v := by
  obtain ⟨rc, rfl⟩ := hc
  choose rq hq using hq
  choose rk hk using hk
  choose rv hv using hv
  obtain rfl : q = fun e => (rq e : EReal) := funext hq
  obtain rfl : k = fun m e => (rk m e : EReal) := funext fun m => funext fun e => hk m e
  obtain rfl : v = fun m => (rv m : EReal) := funext hv
  -- both score rows are the same real row
  have hK : scoreK (rc : EReal) (fun e => (rq e : EReal)) (fun m e => (rk m e : EReal))
      = fun m => (((∑ e : Fin 64, rq e * rk m e) * rc : ℝ) : EReal) := funext (scoreK_coe rc rq rk)
  have hR : scoreR (rc : EReal) (fun e => (rq e : EReal)) (fun m e => (rk m e : EReal))
      = fun m => (((∑ e : Fin 64, rq e * rk m e) * rc : ℝ) : EReal) := funext (scoreR_coe rc rq rk)
  -- so both weight rows are the same positive real row, whose sum is a nonzero real
  obtain ⟨p, hp, hwt⟩ := wt_coe fun m => (∑ e : Fin 64, rq e * rk m e) * rc
  have hD : (∑ m : Fin 2048, p m) ≠ 0 := (Finset.sum_pos (fun m _ => hp m) Finset.univ_nonempty).ne'
  rw [headK, headR, hK, hR, hwt]
  simp only [← coe_sum, Ideal.div_coe hD, ← EReal.coe_mul]
  rw [EReal.coe_eq_coe_iff, Finset.sum_mul]
  exact Finset.sum_congr rfl fun m _ => by ring

/-- So the whole result is the same either way, when the input, the packed weight and the packed bias are real. -/
theorem outK_eq_outR (x : Fin 2048 → Fin 2 → Fin 1024 → EReal) (w : Fin 3072 → Fin 1024 → EReal) (b : Fin 3072 → EReal)
    (wo : Fin 1024 → Fin 1024 → EReal) (bo : Fin 1024 → EReal) (c : EReal) (hc : ∃ r : ℝ, c = (r : EReal))
    (hx : ∀ l n e, ∃ r : ℝ, x l n e = (r : EReal)) (hw : ∀ f e, ∃ r : ℝ, w f e = (r : EReal))
    (hb : ∀ f, ∃ r : ℝ, b f = (r : EReal)) (l : Fin 2048) (n : Fin 2) (f : Fin 1024) :
    outK x w b wo bo c l n f = outR x w b wo bo c l n f := by
  have hqkv : ∀ l n f, ∃ r : ℝ, qkv x w b l n f = (r : EReal) :=
    fun l n f => lin_real (x l n) (w f) (b f) (hx l n) (hw f) (hb f)
  have hattn : attnK x w b c l n = attnR x w b c l n := by
    funext e
    rw [attnK, attnR]
    exact headK_eq_headR c hc _ _ _ (fun d => hqkv _ _ _) (fun m d => hqkv _ _ _) (fun m => hqkv _ _ _)
  rw [outK, outR, hattn]

end Cert.Mha

end
-- ==== Proof.FiniteInputs.lean ====
/-
  The precondition, opened: every entry of every input array is a real number.
-/
import proofs.«409386_j62869731279490_3_alg».proof.Pre_finite_inputs
import proofs.«409386_j62869731279490_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Opened

open Idealize.ShloMosaic Cert.Pre_finite_inputs

/-- The f32 pattern `0x7F800000` (exponent all ones, significand zero, sign clear) denotes `+∞`. -/
theorem ofBits_inf : Ideal.ofBits .f32 0x7F800000#32 = (⊤ : EReal) := by
  simp [Ideal.ofBits, Ideal.ieee]

/-- `|v| < +∞` read back: `max v (-v) < ⊤` excludes `v = ⊤` (then `max v (-v) = ⊤`) and `v = ⊥`
    (then `-v = ⊤`), so `v` is a real number. -/
theorem real_of_abs_lt_top (v : EReal) (e : Ideal.cmp .olt (max v (-v)) (⊤ : EReal) = 1#1) : ∃ r : ℝ, v = (r : EReal) := by
  induction v using EReal.rec with
  | bot => simp [Ideal.cmp] at e
  | coe r => exact ⟨r, rfl⟩
  | top => simp [Ideal.cmp] at e

/-- An array whose elementwise `|·| < +∞`, reduced by `and` over all its axes to one word, is 1 has real entries:
    the conjunction being 1, every compared element is 1, and each says `|a i| < ⊤`. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) := by
  haveI : Subsingleton S_.Idx := ⟨fun p q => funext fun d => d.elim0⟩
  have h1 := Host.reduce_andi_all _ _ hr hu ValueIdx.ix0 e i
  simp only [cmpf, Host.absf, broadcastInDim, constant, Ideal.hostAbsf_def, Ideal.ofBits_def, ofBits_inf] at h1
  exact real_of_abs_lt_top (a i) h1

/-- If the printed predicate is all ones at `Ideal`, every entry of each of the five arrays is real. -/
theorem real_of_pre [Cert.Pre_finite_inputs.Facts] (x : FVec Ideal S2048x2x1024 .f32) (w : FVec Ideal S3072x1024 .f32) (b : FVec Ideal S3072 .f32)
    (wo : FVec Ideal S1024x1024 .f32) (bo : FVec Ideal S1024 .f32)
    (h : Cert.Pre_finite_inputs.fn (F := Ideal) x w b wo bo = fun _ => 1#1) :
    (∀ i, ∃ r : ℝ, x i = (r : EReal)) ∧ (∀ i, ∃ r : ℝ, w i = (r : EReal)) ∧ (∀ i, ∃ r : ℝ, b i = (r : EReal))
      ∧ (∀ i, ∃ r : ℝ, wo i = (r : EReal)) ∧ (∀ i, ∃ r : ℝ, bo i = (r : EReal)) := by
  -- the predicate's one word is the conjunction of the five all-reduces
  have h0 := congrFun h ValueIdx.ix0
  dsimp only [Cert.Pre_finite_inputs.fn, Cert.Pre_finite_inputs.fn_part1] at h0
  simp only [andi, IntOp.andi_eq_one] at h0
  obtain ⟨⟨⟨⟨hx, hw⟩, hb⟩, hwo⟩, hbo⟩ := h0
  exact ⟨real_of_all _ _ _ x hx, real_of_all _ _ _ w hw, real_of_all _ _ _ b hb, real_of_all _ _ _ wo hwo,
    real_of_all _ _ _ bo hbo⟩

end Cert.Pre_finite_inputs.Opened

end
-- ==== Proof.lean ====
/-
  Multi-head self-attention (2048 positions, batch 2, width 1024 = 16 heads of 64) as two kernel regions — the packed
  query/key/value projection, then attention fused with the output projection — against the plain reference.

  FRAMES. Each kernel program runs as two stretches of host operations, each followed by a pipelined region; every
  weakly fair execution terminates, nothing faults, and the arguments end as launched (`run_main`, proved once for any
  float instance and read at the word-level and at the extended-real instance). The reference is a straight line of
  host operations (its generated run).

  VALUES, on the extended reals. The kernel's result at position `l`, batch entry `n`, column `f` is the output
  projection of the sixteen concatenated head outputs; a head's score is the dot product over its 64 columns times
  `0.125`, its weights `exp (score − row maximum)`, its output the weighted sum of the values DIVIDED by the sum of the
  weights (`Cert.Mha.outK`). The reference scales the query by `1 / √64` BEFORE the dot product and divides every weight
  by their sum before weighting the values (`Cert.Mha.outR`). `1 / √64` is `0.125` exactly. On finite inputs every
  entry of the packed projection is a real number, so the scale moves through the 64-term dot product, every weight is
  a real in `[0, 1]` with the row maximum's weight equal to `1`, the sum of the weights is a real `≥ 1`, and the division
  by it distributes over the 2048-term sum: the two results agree. This is where the precondition is used.
-/
import proofs.«409386_j62869731279490_3_alg».proof.Defs
import proofs.«409386_j62869731279490_3_alg».proof.Proof.Gen.Kernel
import proofs.«409386_j62869731279490_3_alg».proof.Proof.Gen.KernelIdeal
import proofs.«409386_j62869731279490_3_alg».proof.Proof.Gen.ReferenceIdeal
import proofs.«409386_j62869731279490_3_alg».proof.Proof.Gen.Pre_finite_inputs
import proofs.«409386_j62869731279490_3_alg».proof.Proof.Gen.ReferenceIdeal.Run
import proofs.«409386_j62869731279490_3_alg».proof.Proof.Run
import proofs.«409386_j62869731279490_3_alg».proof.Proof.WordLevel.Run
import proofs.«409386_j62869731279490_3_alg».proof.Proof.KernelValue
import proofs.«409386_j62869731279490_3_alg».proof.Proof.RefValue
import proofs.«409386_j62869731279490_3_alg».proof.Proof.MhaAlgebra
import proofs.«409386_j62869731279490_3_alg».proof.Proof.FiniteInputs
import Idealize.ShloMosaic.Adequacy
import Idealize.ShloMosaic.Init

noncomputable section

namespace Cert.Proof

open Idealize.ShloMosaic Idealize.ShloMosaic.TcCoe Idealize.SL.Sem Cert.Mha ValueIdx

/-- The word-level kernel program runs and keeps its arguments. -/
theorem frame_k : Cert.frame_Kernel := fun m ρ _ =>
  (θ_run (Cert.Kernel.defs (F := Bits)) _ _).mono (fun _ h c => (h c).2) (Cert.Kernel.Hand.run_main (F := Bits) m ρ)

/-- So does the idealized one. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs the two programs' results agree index by index. -/
theorem algebraic : Cert.algebraic_KernelIdeal_ReferenceIdeal := by
  intro m ρ m' ρ' hpre hagree
  refine ⟨fun c => Cert.KernelIdeal.Hand.A7 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hb, -, -⟩ := Cert.Pre_finite_inputs.Opened.real_of_pre _ _ _ _ _ (hpre c)
  funext i
  obtain ⟨l, n, f, rfl⟩ : ∃ (l : Fin 2048) (n : Fin 2) (f : Fin 1024), i = ix3 l n f := ⟨i 0, i 1, i 2, eq_ix3 i⟩
  refine (Cert.ReferenceIdeal.RefValue.ref_out m' c l n f).trans ?_
  refine Eq.trans ?_ (Cert.KernelIdeal.Hand.kernel_out m c l n f).symm
  rw [(hagree c).1, (hagree c).2.1, (hagree c).2.2.1, (hagree c).2.2.2.1, (hagree c).2.2.2.2]
  show outR _ _ _ _ _ Cert.ReferenceIdeal.RefValue.cR l n f = outK _ _ _ _ _ cK l n f
  rw [show Cert.ReferenceIdeal.RefValue.cR = cK from scale_eq]
  exact (outK_eq_outR _ _ _ _ _ cK scale_real (fun l n e => hx _) (fun f e => hw _) (fun f => hb _) l n f).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
